-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S256x256 : Shape := ⟨2, ![256, 256]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x128x128 .f32) (main_arg1 : FVec F S256x256 .f32) (main_arg2 : FVec F S256 .f32) (main_arg3 : FVec F S256x256 .f32) (main_arg4 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16x256x128x128 : Shape := ⟨4, ![16, 256, 128, 128]⟩
abbrev S256x256 : Shape := ⟨2, ![256, 256]⟩
abbrev S256 : Shape := ⟨1, ![256]⟩
abbrev S16x256 : Shape := ⟨2, ![16, 256]⟩
abbrev S16x128x16x128 : Shape := ⟨4, ![16, 128, 16, 128]⟩
abbrev S16x128 : Shape := ⟨2, ![16, 128]⟩
abbrev S16x128x16 : Shape := ⟨3, ![16, 128, 16]⟩
abbrev S1x256 : Shape := ⟨2, ![1, 256]⟩
abbrev S_ : Shape := ⟨0, ![]⟩
abbrev S16x128x8x128 : Shape := ⟨4, ![16, 128, 8, 128]⟩
abbrev S16x128x1x1 : Shape := ⟨4, ![16, 128, 1, 1]⟩

abbrev nBuf : Space → Nat
  | .hbm => 34
  | .vmem => 11
  | .smem => 0
  | _ => 0

abbrev bufTy : (tb : Table) → Fin (tcTables nBuf tb) → BufTy
  | .hbm, ⟨0, _⟩ => ⟨S16x256x128x128, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S16x256, .f32⟩
  | .hbm, ⟨6, _⟩ => ⟨S256x256, .f32⟩
  | .hbm, ⟨7, _⟩ => ⟨S16x256, .f32⟩
  | .hbm, ⟨8, _⟩ => ⟨S1x256, .f32⟩
  | .hbm, ⟨9, _⟩ => ⟨S16x256, .f32⟩
  | .hbm, ⟨10, _⟩ => ⟨S16x256, .f32⟩
  | .hbm, ⟨11, _⟩ => ⟨S16x256, .f32⟩
  | .hbm, ⟨12, _⟩ => ⟨S16x256, .f32⟩
  | .hbm, ⟨13, _⟩ => ⟨S_, .f32⟩
  | .hbm, ⟨14, _⟩ => ⟨S16x256, .f32⟩
  | .hbm, ⟨15, _⟩ => ⟨S16x256, .f32⟩
  | .hbm, ⟨16, _⟩ => ⟨S_, .f32⟩
  | .hbm, ⟨17, _⟩ => ⟨S16x256, .f32⟩
  | .hbm, ⟨18, _⟩ => ⟨S16x256, .f32⟩
  | .hbm, ⟨19, _⟩ => ⟨S16x256, .f32⟩
  | .hbm, ⟨20, _⟩ => ⟨S256x256, .f32⟩
  | .hbm, ⟨21, _⟩ => ⟨S16x256, .f32⟩
  | .hbm, ⟨22, _⟩ => ⟨S1x256, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S_, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256x128x128, .f32⟩
  | .local _ .vmem, ⟨0, _⟩ => ⟨S16x128x16x128, .f32⟩
  | .local _ .vmem, ⟨1, _⟩ => ⟨S16x128x16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128x8x128, .f32⟩
  | .local _ .vmem, ⟨6, _⟩ => ⟨S16x128x8x128, .f32⟩
  | .local _ .vmem, ⟨7, _⟩ => ⟨S16x128, .f32⟩
  | .local _ .vmem, ⟨8, _⟩ => ⟨S16x128, .f32⟩
  | .local _ .vmem, ⟨9, _⟩ => ⟨S16x128x8x128, .f32⟩
  | .local _ .vmem, ⟨10, _⟩ => ⟨S16x128x8x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S16x128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x128x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x128x16x128_S16x128x16x128_0_0_0_0 : ∀ a, (![0, 0, 0, 0] : Fin 4 → Nat) a + S16x128x16x128.size a ≤ S16x128x16x128.size a
  h_S16x128x16x128 : 0 < S16x128x16x128.numel
  reduces_S16x128x16x128_S16x128x16 : S16x128x16x128.Reduces [3] S16x128x16
  reduces_S16x128x16_S16x128 : S16x128x16.Reduces [2] S16x128
  transposes_S256x256_S256x256_1_0 : S256x256.Transposes [1, 0] S256x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  shapeCasts_S16x128_S16x128x1x1 : S16x128.ShapeCasts S16x128x1x1
  shapeCasts_S16x128x1x1_S16x128x1x1 : S16x128x1x1.ShapeCasts S16x128x1x1
  broadcasts_S16x128x1x1_S16x128x8x128 : S16x128x1x1.Broadcasts S16x128x8x128
  inb_S16x128x8x128_S16x128x8x128_0_0_0_0 : ∀ a, (![0, 0, 0, 0] : Fin 4 → Nat) a + S16x128x8x128.size a ≤ S16x128x8x128.size a
  h_S16x128x8x128 : 0 < S16x128x8x128.numel
  dot_S16x256_S256x256_S16x256_1_0_0_1_n_n_wf : DotDims.WF S16x256 S256x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x16x128.size a ≤ S16x256x128x128.size a
  hwx0_0 : ∀ i : grid0.Coords, EltTy.bits .f32 = 32 ∨ (Rect.block (s := S16x256x128x128) S16x128x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x256.size a
  hwx0_1 : ∀ i : grid0.Coords, EltTy.bits .f32 = 32 ∨ (Rect.block (s := S16x256) S16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x128x8x128.size a ≤ S16x256x128x128.size a
  hwx1_0 : ∀ i : grid1.Coords, EltTy.bits .f32 = 32 ∨ (Rect.block (s := S16x256x128x128) S16x128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x256.size a
  hwx1_1 : ∀ i : grid1.Coords, EltTy.bits .f32 = 32 ∨ (Rect.block (s := S16x256) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128x8x128.size a ≤ S16x256x128x128.size a
  hwx1_2 : ∀ i : grid1.Coords, EltTy.bits .f32 = 32 ∨ (Rect.block (s := S16x256x128x128) S16x128x8x128.size (cc1_transform_2 i) (hinb1_2 i)).WholeWords (EltTy.packing .f32)

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

abbrev win0_0 : Pipeline.Window sig grid0 :=
  Pipeline.Window.ofSpec (Memref.whole main_arg0) S16x128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S16x128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S16x128x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S256x256 : Shape := ⟨2, ![256, 256]⟩
abbrev S256 : Shape := ⟨1, ![256]⟩
abbrev S_ : Shape := ⟨0, ![]⟩
abbrev S16x256 : Shape := ⟨2, ![16, 256]⟩
abbrev S1x256 : Shape := ⟨2, ![1, 256]⟩
abbrev S16x256x1x1 : Shape := ⟨4, ![16, 256, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S256x256, .f32⟩
  | .hbm, ⟨11, _⟩ => ⟨S16x256, .f32⟩
  | .hbm, ⟨12, _⟩ => ⟨S1x256, .f32⟩
  | .hbm, ⟨13, _⟩ => ⟨S16x256, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S_, .f32⟩
  | .hbm, ⟨21, _⟩ => ⟨S16x256, .f32⟩
  | .hbm, ⟨22, _⟩ => ⟨S16x256, .f32⟩
  | .hbm, ⟨23, _⟩ => ⟨S16x256, .f32⟩
  | .hbm, ⟨24, _⟩ => ⟨S256x256, .f32⟩
  | .hbm, ⟨25, _⟩ => ⟨S16x256, .f32⟩
  | .hbm, ⟨26, _⟩ => ⟨S1x256, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S16x256, .f32⟩
  | .hbm, ⟨31, _⟩ => ⟨S_, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | .hbm, ⟨37, _⟩ => ⟨S16x256x1x1, .f32⟩
  | .hbm, ⟨38, _⟩ => ⟨S16x256x128x128, .f32⟩
  | .hbm, ⟨39, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  transposes_S256x256_S256x256_1_0 : S256x256.Transposes [1, 0] S256x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S256x256_S16x256_1_0_0_1_n_n_wf : DotDims.WF S16x256 S256x256 S16x256 [1] [0] [0] [1] [] []

variable [Facts₀]

def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

class Facts : Prop extends Facts₀ where

variable [Facts]
-- ==== Proof.OnBits.Pool.lean ====
/-
  The first pallas_call: the sum of x over its two trailing axes, one channel tile of 128 at a time, scaled
  by 2^-14 at the end.

  The grid is 2 channel tiles by 8 row bands; point t = 8 * tile + band sees the (16, 128, 16, 128) block of x
  for that tile and band.  A (16, 128) scratch buffer carries the running sum between points: at band 0 the
  body zeroes it, at every band it adds the block's sum over the two trailing axes, and at band 7 it stores
  scratch * 2^-14 into the output block, which the pipeline writes back there and only there.

  All of it is stated at a parameter V (the core's buffer contents when the region is entered) and at any float
  instance.  `accAt` is what the scratch holds after each point; the region's invariant says exactly that, so the
  body at a point may assume the previous point's sum.
-/
import proofs.«159613_j44547400794189_1_alg».proof.Proof.Gen.Kernel.Launch
import proofs.«159613_j44547400794189_1_alg».proof.Proof.Gen.Kernel.Skeleton
import proofs.«159613_j44547400794189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the point's block of x whenever the body runs. -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## Which band a point is in -/

/-- The body's first branch: the band coordinate is 0. -/
abbrev atFirst (i : grid0.Coords) : Prop := (Scalar.cmpi .ne (Scalar.extui (Scalar.cmpi .eq (BitVec.ofNat 32 (i 1).val) 0#32)) 0#32) = 1#1
/-- The body's second branch: the band coordinate is 7. -/
abbrev atLast (i : grid0.Coords) : Prop := k0_cond2 i = 1#1

theorem atFirst_iff : ∀ t : Fin cfg0.N, atFirst (grid0.coords t) ↔ t.val % 8 = 0 :=
  (by decide +kernel : ∀ t : Fin grid0.N, atFirst (grid0.coords t) ↔ t.val % 8 = 0)
theorem atLast_iff : ∀ t : Fin cfg0.N, atLast (grid0.coords t) ↔ t.val % 8 = 7 :=
  (by decide +kernel : ∀ t : Fin grid0.N, atLast (grid0.coords t) ↔ t.val % 8 = 7)

/-- The x window is live at every point; the output window is idle, and not written back, off the last band, and
    live on it. -/
theorem x_live : ∀ t : Fin cfg0.N, cfg0.idle 0 (grid0.coords t) = false := by decide +kernel
theorem out_idle : ∀ t : Fin cfg0.N, ¬atLast (grid0.coords t) → cfg0.idle 1 (grid0.coords t) = true := by decide +kernel
theorem out_noflush : ∀ t : Fin cfg0.N, ¬atLast (grid0.coords t) → (cfg0.win 1).flush t = false := by decide +kernel
theorem out_live : ∀ t : Fin cfg0.N, atLast (grid0.coords t) → cfg0.idle 1 (grid0.coords t) = false := by decide +kernel

/-! ## The body's triple, band by band -/

/-- The scratch operand as the body table passes it. -/
abbrev scr : Memref sig .tc .vmem S16x128 .f32 := Memref.whole cc0_scratch0

/-- The whole (16, 128) block and the whole (16, 128, 16, 128) block, as the body's load and store rectangles. -/
abbrev gbox : Rect S16x128 := Rect.unit (s := S16x128) ![0, 0] S16x128.size inb_S16x128_S16x128_0_0
abbrev xbox : Rect S16x128x16x128 := Rect.unit (s := S16x128x16x128) ![0, 0, 0, 0] S16x128x16x128.size inb_S16x128x16x128_S16x128x16x128_0_0_0_0

theorem zero2 : (![0, 0] : Fin S16x128.rank → Nat) = fun _ => 0 := by
  funext a; match a with | ⟨0, _⟩ => rfl | ⟨1, _⟩ => rfl
theorem zero4 : (![0, 0, 0, 0] : Fin S16x128x16x128.rank → Nat) = fun _ => 0 := by
  funext a; match a with | ⟨0, _⟩ => rfl | ⟨1, _⟩ => rfl | ⟨2, _⟩ => rfl | ⟨3, _⟩ => rfl

/-- Every index lies in a rectangle that starts at the origin and has the shape's own extents. -/
theorem mem_whole_box {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose LAST one (the head) is over the whole (16, 128) block covers the block. -/
theorem cover_head (w : S16x128.Idx → Elt F .f32) (L : List (View.Piece (Elt F) S16x128 .f32)) (y : S16x128.Idx) :
    ∃ p ∈ ((⟨gbox, w⟩ : View.Piece (Elt F) S16x128 .f32) :: L), y ∈ p.1.set :=
  ⟨_, List.mem_cons_self, mem_whole_box zero2 inb_S16x128_S16x128_0_0 y⟩

set_option maxHeartbeats 2000000 in
/-- Band 0: whatever the scratch held, it ends at the block's sum added to zero; the output buffer is untouched. -/
theorem triple_first (c : Dev nD) (E : Set ℕ) (i : grid0.Coords) (arg2 : Memref sig .tc .vmem S16x128x16x128 .f32) (harg2 : arg2.IsWhole)
    (arg3 : Memref sig .tc .vmem S16x128 .f32) (harg3 : arg3.IsWhole) (arg4 : Memref sig .tc .vmem S16x128 .f32) (harg4 : arg4.IsWhole)
    (hf : atFirst i) (hl : ¬atLast i) (x0 : Vec F S16x128x16x128 .f32) (o0 : Vec F S16x128 .f32) (K : PUnit → sProp 𝕄) :
    iprop(owns (c : Thread nD τ) arg2 fullShare x0 ∗ owns (c : Thread nD τ) arg3 fullShare o0 ∗ (∃ d, owns (c : Thread nD τ) arg4 fullShare d)
        ∗ (iprop(owns (c : Thread nD τ) arg2 fullShare x0 ∗ owns (c : Thread nD τ) arg3 fullShare o0
            ∗ owns (c : Thread nD τ) arg4 fullShare (k0_pay2 x0 (k0_pay1 (F := F)))) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%ds, %fs, -, HS⟩, Hk⟩
  subst hf0; subst hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover_head _ _), View.canon_cons_unit_zero (S := S16x128) zero2]
  simp only [View.readAt_eq_ld, View.ld_unit_zero (S := S16x128x16x128) zero4, View.readCov_unit_zero (S := S16x128) _ zero2]

set_option maxHeartbeats 2000000 in
/-- A middle band: the scratch at s0 ends at the block's sum added to s0; the output buffer is untouched. -/
theorem triple_mid (c : Dev nD) (E : Set ℕ) (i : grid0.Coords) (arg2 : Memref sig .tc .vmem S16x128x16x128 .f32) (harg2 : arg2.IsWhole)
    (arg3 : Memref sig .tc .vmem S16x128 .f32) (harg3 : arg3.IsWhole) (arg4 : Memref sig .tc .vmem S16x128 .f32) (harg4 : arg4.IsWhole)
    (hf : ¬atFirst i) (hl : ¬atLast i) (x0 : Vec F S16x128x16x128 .f32) (o0 : Vec F S16x128 .f32) (s0 : Vec F S16x128 .f32) (K : PUnit → sProp 𝕄) :
    iprop(owns (c : Thread nD τ) arg2 fullShare x0 ∗ owns (c : Thread nD τ) arg3 fullShare o0 ∗ owns (c : Thread nD τ) arg4 fullShare s0
        ∗ (iprop(owns (c : Thread nD τ) arg2 fullShare x0 ∗ owns (c : Thread nD τ) arg3 fullShare o0
            ∗ owns (c : Thread nD τ) arg4 fullShare (k0_pay2 x0 s0)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%fs, %hfs, HS⟩, Hk⟩
  subst hf0; subst hf1; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  try sl_unfold_words
  rw [View.read_writes_eq_canon _ _ _ (cover_head _ _), View.canon_cons_unit_zero (S := S16x128) zero2]
  simp only [View.readAt_eq_ld, View.ld_unit_zero (S := S16x128x16x128) zero4, View.ld_unit_zero (S := S16x128) zero2]

set_option maxHeartbeats 2000000 in
/-- The last band: the scratch as on a middle band, and the output buffer ends at the new sum times 2^-14. -/
theorem triple_last (c : Dev nD) (E : Set ℕ) (i : grid0.Coords) (arg2 : Memref sig .tc .vmem S16x128x16x128 .f32) (harg2 : arg2.IsWhole)
    (arg3 : Memref sig .tc .vmem S16x128 .f32) (harg3 : arg3.IsWhole) (arg4 : Memref sig .tc .vmem S16x128 .f32) (harg4 : arg4.IsWhole)
    (hf : ¬atFirst i) (hl : atLast i) (x0 : Vec F S16x128x16x128 .f32) (s0 : Vec F S16x128 .f32) (K : PUnit → sProp 𝕄) :
    iprop(owns (c : Thread nD τ) arg2 fullShare x0 ∗ (∃ d, owns (c : Thread nD τ) arg3 fullShare d) ∗ owns (c : Thread nD τ) arg4 fullShare s0
        ∗ (iprop(owns (c : Thread nD τ) arg2 fullShare x0 ∗ owns (c : Thread nD τ) arg3 fullShare (k0_pay3 (k0_pay2 x0 s0))
            ∗ owns (c : Thread nD τ) arg4 fullShare (k0_pay2 x0 s0)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%d1, %f1, -, H1⟩, ⟨%fs, %hfs, HS⟩, Hk⟩
  subst hf0; subst hfs
  sl_exec (disch := first | exact hf | exact hl)
  sl_step
  iapply Hk
  isplitl [H0]
  · iexists f0; isplitr; · ipureintro; rfl
    iexact H0
  isplitl [H1]
  · iexists _; isplitr
    swap; · iexact H1
    ipureintro
    try sl_unfold_words
    rw [View.read_writes_eq_canon _ _ _ (cover_head _ _), View.canon_cons_unit_zero (S := S16x128) zero2]
    simp only [View.readAt_eq_ld, View.ld_unit_zero (S := S16x128x16x128) zero4, View.ld_unit_zero (S := S16x128) zero2,
      View.readCov_unit_zero (S := S16x128) _ zero2]
  iexists _; isplitr
  swap; · iexact HS
  ipureintro
  try sl_unfold_words
  rw [View.read_writes_eq_canon _ _ _ (cover_head _ _), View.canon_cons_unit_zero (S := S16x128) zero2]
  simp only [View.readAt_eq_ld, View.ld_unit_zero (S := S16x128x16x128) zero4, View.ld_unit_zero (S := S16x128) zero2]

/-! ## What the scratch holds after each point -/

/-- The running sum after the body at position n: on band 0 the block's sum added to zero, on a later band
    added to what the point before left. -/
def accAt (c : Dev nD) : (n : ℕ) → n < cfg0.N → Vec F S16x128 .f32
  | 0, hn => k0_pay2 (blk V c 0 ⟨0, hn⟩) (k0_pay1 (F := F))
  | n + 1, hn =>
    if (n + 1) % 8 = 0 then k0_pay2 (blk V c 0 ⟨n + 1, hn⟩) (k0_pay1 (F := F))
    else k0_pay2 (blk V c 0 ⟨n + 1, hn⟩) (accAt c n (Nat.lt_of_succ_lt hn))

theorem accAt_first (c : Dev nD) (t : Fin cfg0.N) (h : t.val % 8 = 0) :
    accAt V c t.val t.isLt = k0_pay2 (blk V c 0 t) (k0_pay1 (F := F)) := by
  obtain ⟨n, hn⟩ := t
  cases n with
  | zero => rfl
  | succ n => exact (if_pos h).trans rfl

theorem accAt_next (c : Dev nD) (t : Fin cfg0.N) (h : ¬t.val % 8 = 0) :
    accAt V c t.val t.isLt = k0_pay2 (blk V c 0 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- The second pallas_call's six staging buffers, each whole at some contents: scoped buffers this region never
    touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The plain invariant (every scoped buffer the pipeline does not stage at some contents, and the generator
    register) with the scratch spelt as a memref owned at some contents. -/
theorem plain_eq (c : Dev nD) :
    (Pipeline.ΦA spec0 c : sProp 𝕄)
      = iprop(((∃ d, owns (c : Thread nD τ) scr fullShare d) ∗ others c) ∗ (∃ r, prngReg c r)) := by
  unfold Pipeline.ΦA others; rw [scopedRest0_eq]; simp only [scr, owns_whole]; try rfl

/-- Before position n: at the region's start the plain invariant; afterwards the same with the scratch at the
    running sum the point before left. -/
def inv (c : Dev nD) : (n : ℕ) → n ≤ cfg0.N → sProp 𝕄
  | 0, _ => Pipeline.ΦA spec0 c
  | n + 1, hn => iprop((owns (c : Thread nD τ) scr fullShare (accAt V c n hn) ∗ others c) ∗ (∃ r, prngReg c r))

theorem inv_zero (c : Dev nD) (n : ℕ) (h : n ≤ cfg0.N) (hz : n = 0) : inv V c n h = Pipeline.ΦA spec0 c := by
  subst hz; rfl

theorem inv_succ (c : Dev nD) (n : ℕ) (hn : n < cfg0.N) :
    inv V c (n + 1) hn = iprop((owns (c : Thread nD τ) scr fullShare (accAt V c n hn) ∗ others c) ∗ (∃ r, prngReg c r)) := rfl

theorem inv_pos (c : Dev nD) (n : ℕ) (h : n ≤ cfg0.N) (hz : n ≠ 0) :
    inv V c n h = iprop((owns (c : Thread nD τ) scr fullShare (accAt V c (n - 1) (by omega)) ∗ others c) ∗ (∃ r, prngReg c r)) := by
  cases n with
  | zero => exact absurd rfl hz
  | succ n => rfl

/-! ## The proof data and the body obligation -/

/-- The region's proof data on core c: the arrays as found; after the body at point t the x buffer at its block
    and the output buffer at the running sum times 2^-14 (which the pipeline consults on the last band only);
    the invariant above; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => k0_pay3 (accAt V c t.val t.isLt)
  Φ t := inv V c t.val (Nat.le_of_lt_succ t.isLt)
  q _ := fullShare
  owed _ := 0

theorem dat_A (c : Dev nD) (w : Fin cfg0.W) : (dat V c).A w = V c (Pipeline.arrRef spec0 w) := by
  dsimp only [dat]

theorem inv_castSucc (c : Dev nD) (t : Fin cfg0.N) :
    (dat V c).Φ t.castSucc = inv V c t.val (Nat.le_of_lt t.isLt) := by
  dsimp only [dat]; simp only [Fin.coe_castSucc]

theorem after_x (c : Dev nD) (t : Fin cfg0.N) : (dat V c).after 0 t = blk V c 0 t := by dsimp only [dat]
theorem after_out (c : Dev nD) (t : Fin cfg0.N) : (dat V c).after 1 t = k0_pay3 (accAt V c t.val t.isLt) := by dsimp only [dat]

theorem before_x (c : Dev nD) (t : Fin cfg0.N) (d) : (dat V c).before 0 t d = blk V c 0 t :=
  found_x V (dat V c) (dat_A V c 0) (after_x V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4000000 in
/-- The body at any point: the band decides which triple applies; the invariant hands the body the scratch at the
    previous point's sum (at anything at the very first point) and takes it back at this point's. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg0.N = 16 from N_0)
  rw [show (dat V c).leavesExact 0 t = owns (c : Thread nD τ) (st0_0 t) fullShare ((dat V c).after 0 t) from by
    unfold Dat.leavesExact; rw [x_live t], after_x]
  by_cases h0 : t.val % 8 = 0
  · have hf : atFirst (grid0.coords t) := (atFirst_iff t).mpr h0
    have hl : ¬atLast (grid0.coords t) := fun h => by have := (atLast_iff t).mp h; omega
    rw [Dat.leavesExact_idle (dat V c) 1 t (out_idle t hl) (out_noflush t hl)]
    rw [accAt_first V c t h0]
    by_cases hz : t.val = 0
    · rw [inv_castSucc V c t, inv_zero V c _ _ hz, plain_eq]
      iintro ⟨⟨⟨HS, Hoth⟩, Hg⟩, Ho, ⟨%d0, H0⟩, ⟨%d1, H1⟩⟩
      iapply (triple_first c Set.univ _ _ _ _ _ _ _ hf hl (blk V c 0 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1
    · rw [inv_castSucc V c t, inv_pos V c _ _ hz]
      iintro ⟨⟨⟨HS, Hoth⟩, Hg⟩, Ho, ⟨%d0, H0⟩, ⟨%d1, H1⟩⟩
      iapply (triple_first c Set.univ _ _ _ _ _ _ _ hf hl (blk V c 0 t) _ _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1
  · have hf : ¬atFirst (grid0.coords t) := fun h => h0 ((atFirst_iff t).mp h)
    have hz : t.val ≠ 0 := fun h => h0 (by rw [h])
    rw [accAt_next V c t h0]
    rw [inv_castSucc V c t, inv_pos V c _ _ hz]
    by_cases h7 : t.val % 8 = 7
    · have hl : atLast (grid0.coords t) := (atLast_iff t).mpr h7
      rw [show (dat V c).leavesExact 1 t = owns (c : Thread nD τ) (st0_1 t) fullShare ((dat V c).after 1 t) from by
        unfold Dat.leavesExact; rw [out_live t hl], after_out, accAt_next V c t h0]
      iintro ⟨⟨⟨HS, Hoth⟩, Hg⟩, Ho, ⟨%d0, H0⟩, ⟨%d1, H1⟩⟩
      iapply (triple_last c Set.univ _ _ _ _ _ _ _ hf hl (blk V c 0 t) _ _)
      isplitl [H0]; · iexact H0
      isplitl [H1]; · iexists _; iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexact H1
    · have hl : ¬atLast (grid0.coords t) := fun h => h7 ((atLast_iff t).mp h)
      rw [Dat.leavesExact_idle (dat V c) 1 t (out_idle t hl) (out_noflush t hl)]
      iintro ⟨⟨⟨HS, Hoth⟩, Hg⟩, Ho, ⟨%d0, H0⟩, ⟨%d1, H1⟩⟩
      iapply (triple_mid c Set.univ _ _ _ _ _ _ _ hf hl (blk V c 0 t) _ _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1

/-- The body obligation of the region's proof data, at every point. -/
theorem body_obligation (c : Dev nD) : BodyObligation (dat (F := F) V c) (defs₀ (F := F)) Variants.none () Set.univ := fun t => by
  rw [bigSep_W0, bigSep_W0]
  exact body_at V c t

/-! ## Into and out of the region -/

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the plain one back: what the scratch holds is forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 16 := N_0; omega), plain_eq]
  iintro ⟨⟨HS, Hoth⟩, Hg⟩
  isplitl [HS Hoth]
  · isplitl [HS]; · iexists _; iexact HS
    iexact Hoth
  iexact Hg

end Cert.Kernel.Pool

end
-- ==== Proof.OnBits.Scale.lean ====
/-
  The second pallas_call: out = x * gate, one (16, 128, 8, 128) block of x per grid point against the
  (16, 128) block of the gate that belongs to the point's channel tile.

  Everything here is stated at a parameter V, the contents of the core's buffers when the region is entered,
  and at any float instance.  The body reads both input blocks whole, broadcasts the gate over the two
  trailing axes, multiplies, and stores the product over the whole output block; it keeps nothing between
  points.  So after the body at point t the output's staging buffer holds `scaled` of the two input blocks at
  t, the input buffers are as found, and the region's invariant is the plain one (the scoped buffers the
  pipeline does not stage, and the generator register, untouched).
-/
import proofs.«159613_j44547400794189_1_alg».proof.Proof.Gen.Kernel.Launch
import proofs.«159613_j44547400794189_1_alg».proof.Proof.Gen.Kernel.Skeleton
import proofs.«159613_j44547400794189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds the point's block of x whenever the body runs: the body leaves it in place,
    and where the pipeline does not fetch, the block index has not moved. -/
theorem found_x {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the gate window, which is fetched only when the channel tile changes. -/
theorem found_g {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body leaves in the output block -/

/-- The whole (16, 128, 8, 128) block and the whole (16, 128) block, as the body's load and store rectangles. -/
abbrev xbox : Rect S16x128x8x128 := Rect.unit (s := S16x128x8x128) ![0, 0, 0, 0] S16x128x8x128.size inb_S16x128x8x128_S16x128x8x128_0_0_0_0
abbrev gbox : Rect S16x128 := Rect.unit (s := S16x128) ![0, 0] S16x128.size inb_S16x128_S16x128_0_0

/-- The output block after the body, from the two input blocks: its one store, x times the gate broadcast over
    the trailing axes, laid over the whole block. -/
def scaled (x0 : Vec F S16x128x8x128 .f32) (g0 : Vec F S16x128 .f32) : Vec F S16x128x8x128 .f32 :=
  View.canon [⟨xbox, k1_pay1 (View.ld g0 gbox) (View.ld x0 xbox)⟩]

/-- That store covers the block. -/
theorem scaled_cover (p0 : Vec F S16x128x8x128 .f32) (y : S16x128x8x128.Idx) :
    ∃ pc ∈ ([⟨xbox, p0⟩] : List (View.Piece (Elt F) S16x128x8x128 .f32)), y ∈ pc.1.set :=
  View.cover_of_tiled [⟨xbox, p0⟩] S16x128x8x128.size (by rfl) y

/-! ## The body's triple -/

set_option maxHeartbeats 1000000 in
/-- On whole staging memrefs, x's at x0 and the gate's at g0 and the output's at anything, the body runs to the
    continuation with the inputs as they were and the output at `scaled x0 g0`. -/
theorem body_triple (c : Dev nD) (E : Set ℕ) (i : grid1.Coords) (arg2 : Memref sig .tc .vmem S16x128x8x128 .f32) (harg2 : arg2.IsWhole)
    (arg3 : Memref sig .tc .vmem S16x128 .f32) (harg3 : arg3.IsWhole) (arg4 : Memref sig .tc .vmem S16x128x8x128 .f32) (harg4 : arg4.IsWhole)
    (x0 : Vec F S16x128x8x128 .f32) (g0 : Vec F S16x128 .f32) (K : PUnit → sProp 𝕄) :
    iprop(owns (c : Thread nD τ) arg2 fullShare x0 ∗ owns (c : Thread nD τ) arg3 fullShare g0 ∗ (∃ d, owns (c : Thread nD τ) arg4 fullShare d)
        ∗ (iprop(owns (c : Thread nD τ) arg2 fullShare x0 ∗ owns (c : Thread nD τ) arg3 fullShare g0 ∗ owns (c : Thread nD τ) arg4 fullShare (scaled x0 g0)) -∗ K ⟨⟩))
      ⊢ wp frame (wpE (defs₀ (F := F)) Variants.none c none) E (cc1_kernel i arg2 harg2 arg3 harg3 arg4 harg4) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled_cover _)

/-! ## The proof data and the body obligation -/

/-- The region's proof data on core c: the arrays as found; after the body at point t the inputs' buffers at
    their blocks and the output's at `scaled` of them; the plain invariant; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => scaled (blk V c 0 t) (blk V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem after_x (c : Dev nD) (t : Fin cfg1.N) : (dat V c).after 0 t = blk V c 0 t := by dsimp only [dat]
theorem after_g (c : Dev nD) (t : Fin cfg1.N) : (dat V c).after 1 t = blk V c 1 t := by dsimp only [dat]
theorem after_out (c : Dev nD) (t : Fin cfg1.N) : (dat V c).after 2 t = scaled (blk V c 0 t) (blk V c 1 t) := by dsimp only [dat]

theorem before_x (c : Dev nD) (t : Fin cfg1.N) (d) : (dat V c).before 0 t d = blk V c 0 t :=
  found_x V (dat V c) (dat_A V c 0) (after_x V c) t d
theorem before_g (c : Dev nD) (t : Fin cfg1.N) (d) : (dat V c).before 1 t d = blk V c 1 t :=
  found_g V (dat V c) (dat_A V c 1) (after_g V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_g]
  rw [show (dat V c).Φ t.succ = (dat V c).Φ t.castSucc from rfl,
    show (dat V c).owesAt () t.succ = (dat V c).owesAt () t.castSucc from rfl,
    after_x, after_g, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation (c : Dev nD) : BodyObligation (dat (F := F) V c) (defs₀ (F := F)) Variants.none () Set.univ := fun t => by
  rw [bigSep_W1, bigSep_W1]
  exact body_at V c t

end Cert.Kernel.Scale

end
-- ==== Proof.OnBits.Whole.lean ====
/-
  The whole program: pool, then the gate network on the host, then scale.

  The contents of the core's buffers are followed from the launch through the three items of @main: `W0` at
  launch; `W1` after the pool region (its arrays at what the pipeline's write-backs leave, everything else as
  before); `W2` after the 27 host operations of the gate network; `W3` after the scale region.  Each region is
  entered with every unscoped buffer held at the boundary's contents, the generator register at some state
  and nothing owed, and left the same way at the next boundary's contents.  `run_all` is the launch: every
  weakly fair execution terminates and every unscoped buffer ends at `W3`.  The frame reads the five argument
  arrays off it (no item writes one); a value claim reads the result array.
-/
import proofs.«159613_j44547400794189_1_alg».proof.Proof.Gen.Kernel.Launch
import proofs.«159613_j44547400794189_1_alg».proof.Proof.Gen.Kernel.Skeleton
import proofs.«159613_j44547400794189_1_alg».proof.Proof.Gen.Kernel.Points
import proofs.«159613_j44547400794189_1_alg».proof.Proof.Gen.Kernel.Regions
import proofs.«159613_j44547400794189_1_alg».proof.Proof.OnBits.Pool
import proofs.«159613_j44547400794189_1_alg».proof.Proof.OnBits.Scale
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same read at the TensorCore's references: what the pool region's proof data take. -/
abbrev V0 : (c : Dev nD) → (b : Ref sig .tc) → Buf (Elt F) ((c : Thread nD τ).loc b) := fun c b => W0 m c b

/-- After the pool region: its arrays at what the pipeline leaves, every other buffer as entered. -/
def W1 (c : Dev nD) : Valuation τ sig (Elt F) :=
  Pipeline.withArrays spec0 c (W0 m c) fun w => (Pool.dat (V0 m) c).arrAt w cfg0.N
theorem W1_arr (c : Dev nD) (w : Fin cfg0.W) :
    W1 m c (Proc.devRef .tc (Pipeline.arrRef spec0 w)) = (Pool.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem exit0_arr (c : Dev nD) (w : Fin cfg0.W) : (Pool.dat (V0 m) c).arrAt w cfg0.N = V1 m c (Pipeline.arrRef spec0 w) :=
  (W1_arr m c w).symm
theorem exit0_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the gate network's host operations: what the scale region is entered with. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- A buffer no host operation writes is as the pool region left it. -/
theorem W2_of (c : Dev nD) (r : Ref sig .tc) (h : r ∉ hostOps1_W) : W2 m c r = W1 m c r :=
  StableHlo.after_of_writes_sub hostOps1 _ hostOps1_writes h

/-- After the scale region. -/
def W3 (c : Dev nD) : Valuation τ sig (Elt F) :=
  Pipeline.withArrays spec1 c (W2 m c) fun w => (Scale.dat (V2 m) c).arrAt w cfg1.N
theorem W3_arr (c : Dev nD) (w : Fin cfg1.W) :
    W3 m c (Proc.devRef .tc (Pipeline.arrRef spec1 w)) = (Scale.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1_arr (c : Dev nD) (w : Fin cfg1.W) : (Scale.dat (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- x is an input window of both regions: each leaves an input's array as it found it; no host operation writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((Scale.dat (V2 m) c).arrAt_in 0 rfl _).trans (Scale.dat_A (V2 m) c 0))
    _ = W1 m c (Proc.devRef .tc main_arg0) := W2_of m c main_arg0 (by decide)
    _ = W0 m c (Proc.devRef .tc main_arg0) := (W1_arr m c 0).trans (((Pool.dat (V0 m) c).arrAt_in 0 rfl _).trans (Pool.dat_A (V0 m) c 0))
    _ = m ((c : Thread nD τ).loc main_arg0) := rfl

/-- The weights and biases are no window's array and no host operation's result. -/
theorem W3_main_arg1 (c : Dev nD) : W3 m c (Proc.devRef .tc main_arg1) = m ((c : Thread nD τ).loc main_arg1) :=
  (W3_of_ne m c main_arg1 (by decide)).trans ((W2_of m c main_arg1 (by decide)).trans ((W1_of_ne m c main_arg1 (by decide)).trans rfl))
theorem W3_main_arg2 (c : Dev nD) : W3 m c (Proc.devRef .tc main_arg2) = m ((c : Thread nD τ).loc main_arg2) :=
  (W3_of_ne m c main_arg2 (by decide)).trans ((W2_of m c main_arg2 (by decide)).trans ((W1_of_ne m c main_arg2 (by decide)).trans rfl))
theorem W3_main_arg3 (c : Dev nD) : W3 m c (Proc.devRef .tc main_arg3) = m ((c : Thread nD τ).loc main_arg3) :=
  (W3_of_ne m c main_arg3 (by decide)).trans ((W2_of m c main_arg3 (by decide)).trans ((W1_of_ne m c main_arg3 (by decide)).trans rfl))
theorem W3_main_arg4 (c : Dev nD) : W3 m c (Proc.devRef .tc main_arg4) = m ((c : Thread nD τ).loc main_arg4) :=
  (W3_of_ne m c main_arg4 (by decide)).trans ((W2_of m c main_arg4 (by decide)).trans ((W1_of_ne m c main_arg4 (by decide)).trans rfl))

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Pool.dat (V0 m) c
  | ⟨1, _⟩ => fun c => Scale.dat (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at W3, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The pool region: entered from every unscoped buffer at W0, left at W1.  Its arrays are split out of the unscoped
    buffers and put back at the exit contents; the generator register goes into the invariant and comes back; the
    scratch's running sum is forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hplain : iprop(Pipeline.scopedRest spec0 c ∗ ∃ r, prngReg c r) ⊢ ((pdats m 0 c).Φ 0 : sProp 𝕄) := by
      have h := Pool.inv_in (V0 m) c
      unfold Pipeline.ΦA at h
      exact h
    iintro ⟨Hp, -, Hr⟩
    iapply hplain
    isplitl [Hr]; · iexact Hr
    iexact Hp
  hout c := by
    rw [Pipeline.ownSems0_none]
    have hplain : ((pdats m 0 c).Φ (Fin.last _) : sProp 𝕄) ⊢ iprop(Pipeline.scopedRest spec0 c ∗ ∃ r, prngReg c r) := by
      have h := Pool.inv_out (V0 m) c
      unfold Pipeline.ΦA at h
      exact h
    have hsort : iprop(Pipeline.scopedRest spec0 c ∗ ∃ r, prngReg c r)
        ⊢ (iprop((∃ r, prngReg c r) ∗ emp ∗ Pipeline.scopedRest spec0 c) : sProp 𝕄) := by
      iintro ⟨Hr, Hp⟩
      isplitl [Hp]; · iexact Hp
      isplitr; · iempintro
      iexact Hr
    exact hplain.trans hsort
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scale region: entered from every unscoped buffer at W2, left at W3, which the launch reads at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scale.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN.  From any memory with zero counters, every weakly fair execution of @main on the TensorCores terminates,
    nothing faulting, and in every final state each unscoped buffer holds the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Whole

end
-- ==== Proof.OnIdeal.Pool.lean ====
/-
  The first pallas_call: the sum of x over its two trailing axes, one channel tile of 128 at a time, scaled
  by 2^-14 at the end.

  The grid is 2 channel tiles by 8 row bands; point t = 8 * tile + band sees the (16, 128, 16, 128) block of x
  for that tile and band.  A (16, 128) scratch buffer carries the running sum between points: at band 0 the
  body zeroes it, at every band it adds the block's sum over the two trailing axes, and at band 7 it stores
  scratch * 2^-14 into the output block, which the pipeline writes back there and only there.

  All of it is stated at a parameter V (the core's buffer contents when the region is entered) and at any float
  instance.  `accAt` is what the scratch holds after each point; the region's invariant says exactly that, so the
  body at a point may assume the previous point's sum.
-/
import proofs.«159613_j44547400794189_1_alg».proof.Proof.Gen.KernelIdeal.Launch
import proofs.«159613_j44547400794189_1_alg».proof.Proof.Gen.KernelIdeal.Skeleton
import proofs.«159613_j44547400794189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the point's block of x whenever the body runs. -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## Which band a point is in -/

/-- The body's first branch: the band coordinate is 0. -/
abbrev atFirst (i : grid0.Coords) : Prop := (Scalar.cmpi .ne (Scalar.extui (Scalar.cmpi .eq (BitVec.ofNat 32 (i 1).val) 0#32)) 0#32) = 1#1
/-- The body's second branch: the band coordinate is 7. -/
abbrev atLast (i : grid0.Coords) : Prop := k0_cond2 i = 1#1

theorem atFirst_iff : ∀ t : Fin cfg0.N, atFirst (grid0.coords t) ↔ t.val % 8 = 0 :=
  (by decide +kernel : ∀ t : Fin grid0.N, atFirst (grid0.coords t) ↔ t.val % 8 = 0)
theorem atLast_iff : ∀ t : Fin cfg0.N, atLast (grid0.coords t) ↔ t.val % 8 = 7 :=
  (by decide +kernel : ∀ t : Fin grid0.N, atLast (grid0.coords t) ↔ t.val % 8 = 7)

/-- The x window is live at every point; the output window is idle, and not written back, off the last band, and
    live on it. -/
theorem x_live : ∀ t : Fin cfg0.N, cfg0.idle 0 (grid0.coords t) = false := by decide +kernel
theorem out_idle : ∀ t : Fin cfg0.N, ¬atLast (grid0.coords t) → cfg0.idle 1 (grid0.coords t) = true := by decide +kernel
theorem out_noflush : ∀ t : Fin cfg0.N, ¬atLast (grid0.coords t) → (cfg0.win 1).flush t = false := by decide +kernel
theorem out_live : ∀ t : Fin cfg0.N, atLast (grid0.coords t) → cfg0.idle 1 (grid0.coords t) = false := by decide +kernel

/-! ## The body's triple, band by band -/

/-- The scratch operand as the body table passes it. -/
abbrev scr : Memref sig .tc .vmem S16x128 .f32 := Memref.whole cc0_scratch0

/-- The whole (16, 128) block and the whole (16, 128, 16, 128) block, as the body's load and store rectangles. -/
abbrev gbox : Rect S16x128 := Rect.unit (s := S16x128) ![0, 0] S16x128.size inb_S16x128_S16x128_0_0
abbrev xbox : Rect S16x128x16x128 := Rect.unit (s := S16x128x16x128) ![0, 0, 0, 0] S16x128x16x128.size inb_S16x128x16x128_S16x128x16x128_0_0_0_0

theorem zero2 : (![0, 0] : Fin S16x128.rank → Nat) = fun _ => 0 := by
  funext a; match a with | ⟨0, _⟩ => rfl | ⟨1, _⟩ => rfl
theorem zero4 : (![0, 0, 0, 0] : Fin S16x128x16x128.rank → Nat) = fun _ => 0 := by
  funext a; match a with | ⟨0, _⟩ => rfl | ⟨1, _⟩ => rfl | ⟨2, _⟩ => rfl | ⟨3, _⟩ => rfl

/-- Every index lies in a rectangle that starts at the origin and has the shape's own extents. -/
theorem mem_whole_box {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A list of stores whose LAST one (the head) is over the whole (16, 128) block covers the block. -/
theorem cover_head (w : S16x128.Idx → Elt F .f32) (L : List (View.Piece (Elt F) S16x128 .f32)) (y : S16x128.Idx) :
    ∃ p ∈ ((⟨gbox, w⟩ : View.Piece (Elt F) S16x128 .f32) :: L), y ∈ p.1.set :=
  ⟨_, List.mem_cons_self, mem_whole_box zero2 inb_S16x128_S16x128_0_0 y⟩

set_option maxHeartbeats 2000000 in
/-- Band 0: whatever the scratch held, it ends at the block's sum added to zero; the output buffer is untouched. -/
theorem triple_first (c : Dev nD) (E : Set ℕ) (i : grid0.Coords) (arg2 : Memref sig .tc .vmem S16x128x16x128 .f32) (harg2 : arg2.IsWhole)
    (arg3 : Memref sig .tc .vmem S16x128 .f32) (harg3 : arg3.IsWhole) (arg4 : Memref sig .tc .vmem S16x128 .f32) (harg4 : arg4.IsWhole)
    (hf : atFirst i) (hl : ¬atLast i) (x0 : Vec F S16x128x16x128 .f32) (o0 : Vec F S16x128 .f32) (K : PUnit → sProp 𝕄) :
    iprop(owns (c : Thread nD τ) arg2 fullShare x0 ∗ owns (c : Thread nD τ) arg3 fullShare o0 ∗ (∃ d, owns (c : Thread nD τ) arg4 fullShare d)
        ∗ (iprop(owns (c : Thread nD τ) arg2 fullShare x0 ∗ owns (c : Thread nD τ) arg3 fullShare o0
            ∗ owns (c : Thread nD τ) arg4 fullShare (k0_pay2 x0 (k0_pay1 (F := F)))) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%ds, %fs, -, HS⟩, Hk⟩
  subst hf0; subst hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_words
  rw [View.read_writes_eq_canon _ _ _ (cover_head _ _), View.canon_cons_unit_zero (S := S16x128) zero2]
  simp only [View.readAt_eq_ld, View.ld_unit_zero (S := S16x128x16x128) zero4, View.readCov_unit_zero (S := S16x128) _ zero2]

set_option maxHeartbeats 2000000 in
/-- A middle band: the scratch at s0 ends at the block's sum added to s0; the output buffer is untouched. -/
theorem triple_mid (c : Dev nD) (E : Set ℕ) (i : grid0.Coords) (arg2 : Memref sig .tc .vmem S16x128x16x128 .f32) (harg2 : arg2.IsWhole)
    (arg3 : Memref sig .tc .vmem S16x128 .f32) (harg3 : arg3.IsWhole) (arg4 : Memref sig .tc .vmem S16x128 .f32) (harg4 : arg4.IsWhole)
    (hf : ¬atFirst i) (hl : ¬atLast i) (x0 : Vec F S16x128x16x128 .f32) (o0 : Vec F S16x128 .f32) (s0 : Vec F S16x128 .f32) (K : PUnit → sProp 𝕄) :
    iprop(owns (c : Thread nD τ) arg2 fullShare x0 ∗ owns (c : Thread nD τ) arg3 fullShare o0 ∗ owns (c : Thread nD τ) arg4 fullShare s0
        ∗ (iprop(owns (c : Thread nD τ) arg2 fullShare x0 ∗ owns (c : Thread nD τ) arg3 fullShare o0
            ∗ owns (c : Thread nD τ) arg4 fullShare (k0_pay2 x0 s0)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%f1, %hf1, H1⟩, ⟨%fs, %hfs, HS⟩, Hk⟩
  subst hf0; subst hf1; subst hfs
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  try sl_unfold_words
  rw [View.read_writes_eq_canon _ _ _ (cover_head _ _), View.canon_cons_unit_zero (S := S16x128) zero2]
  simp only [View.readAt_eq_ld, View.ld_unit_zero (S := S16x128x16x128) zero4, View.ld_unit_zero (S := S16x128) zero2]

set_option maxHeartbeats 2000000 in
/-- The last band: the scratch as on a middle band, and the output buffer ends at the new sum times 2^-14. -/
theorem triple_last (c : Dev nD) (E : Set ℕ) (i : grid0.Coords) (arg2 : Memref sig .tc .vmem S16x128x16x128 .f32) (harg2 : arg2.IsWhole)
    (arg3 : Memref sig .tc .vmem S16x128 .f32) (harg3 : arg3.IsWhole) (arg4 : Memref sig .tc .vmem S16x128 .f32) (harg4 : arg4.IsWhole)
    (hf : ¬atFirst i) (hl : atLast i) (x0 : Vec F S16x128x16x128 .f32) (s0 : Vec F S16x128 .f32) (K : PUnit → sProp 𝕄) :
    iprop(owns (c : Thread nD τ) arg2 fullShare x0 ∗ (∃ d, owns (c : Thread nD τ) arg3 fullShare d) ∗ owns (c : Thread nD τ) arg4 fullShare s0
        ∗ (iprop(owns (c : Thread nD τ) arg2 fullShare x0 ∗ owns (c : Thread nD τ) arg3 fullShare (k0_pay3 (k0_pay2 x0 s0))
            ∗ owns (c : Thread nD τ) arg4 fullShare (k0_pay2 x0 s0)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  iintro ⟨⟨%f0, %hf0, H0⟩, ⟨%d1, %f1, -, H1⟩, ⟨%fs, %hfs, HS⟩, Hk⟩
  subst hf0; subst hfs
  sl_exec (disch := first | exact hf | exact hl)
  sl_step
  iapply Hk
  isplitl [H0]
  · iexists f0; isplitr; · ipureintro; rfl
    iexact H0
  isplitl [H1]
  · iexists _; isplitr
    swap; · iexact H1
    ipureintro
    try sl_unfold_words
    rw [View.read_writes_eq_canon _ _ _ (cover_head _ _), View.canon_cons_unit_zero (S := S16x128) zero2]
    simp only [View.readAt_eq_ld, View.ld_unit_zero (S := S16x128x16x128) zero4, View.ld_unit_zero (S := S16x128) zero2,
      View.readCov_unit_zero (S := S16x128) _ zero2]
  iexists _; isplitr
  swap; · iexact HS
  ipureintro
  try sl_unfold_words
  rw [View.read_writes_eq_canon _ _ _ (cover_head _ _), View.canon_cons_unit_zero (S := S16x128) zero2]
  simp only [View.readAt_eq_ld, View.ld_unit_zero (S := S16x128x16x128) zero4, View.ld_unit_zero (S := S16x128) zero2]

/-! ## What the scratch holds after each point -/

/-- The running sum after the body at position n: on band 0 the block's sum added to zero, on a later band
    added to what the point before left. -/
def accAt (c : Dev nD) : (n : ℕ) → n < cfg0.N → Vec F S16x128 .f32
  | 0, hn => k0_pay2 (blk V c 0 ⟨0, hn⟩) (k0_pay1 (F := F))
  | n + 1, hn =>
    if (n + 1) % 8 = 0 then k0_pay2 (blk V c 0 ⟨n + 1, hn⟩) (k0_pay1 (F := F))
    else k0_pay2 (blk V c 0 ⟨n + 1, hn⟩) (accAt c n (Nat.lt_of_succ_lt hn))

theorem accAt_first (c : Dev nD) (t : Fin cfg0.N) (h : t.val % 8 = 0) :
    accAt V c t.val t.isLt = k0_pay2 (blk V c 0 t) (k0_pay1 (F := F)) := by
  obtain ⟨n, hn⟩ := t
  cases n with
  | zero => rfl
  | succ n => exact (if_pos h).trans rfl

theorem accAt_next (c : Dev nD) (t : Fin cfg0.N) (h : ¬t.val % 8 = 0) :
    accAt V c t.val t.isLt = k0_pay2 (blk V c 0 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- The second pallas_call's six staging buffers, each whole at some contents: scoped buffers this region never
    touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The plain invariant (every scoped buffer the pipeline does not stage at some contents, and the generator
    register) with the scratch spelt as a memref owned at some contents. -/
theorem plain_eq (c : Dev nD) :
    (Pipeline.ΦA spec0 c : sProp 𝕄)
      = iprop(((∃ d, owns (c : Thread nD τ) scr fullShare d) ∗ others c) ∗ (∃ r, prngReg c r)) := by
  unfold Pipeline.ΦA others; rw [scopedRest0_eq]; simp only [scr, owns_whole]; try rfl

/-- Before position n: at the region's start the plain invariant; afterwards the same with the scratch at the
    running sum the point before left. -/
def inv (c : Dev nD) : (n : ℕ) → n ≤ cfg0.N → sProp 𝕄
  | 0, _ => Pipeline.ΦA spec0 c
  | n + 1, hn => iprop((owns (c : Thread nD τ) scr fullShare (accAt V c n hn) ∗ others c) ∗ (∃ r, prngReg c r))

theorem inv_zero (c : Dev nD) (n : ℕ) (h : n ≤ cfg0.N) (hz : n = 0) : inv V c n h = Pipeline.ΦA spec0 c := by
  subst hz; rfl

theorem inv_succ (c : Dev nD) (n : ℕ) (hn : n < cfg0.N) :
    inv V c (n + 1) hn = iprop((owns (c : Thread nD τ) scr fullShare (accAt V c n hn) ∗ others c) ∗ (∃ r, prngReg c r)) := rfl

theorem inv_pos (c : Dev nD) (n : ℕ) (h : n ≤ cfg0.N) (hz : n ≠ 0) :
    inv V c n h = iprop((owns (c : Thread nD τ) scr fullShare (accAt V c (n - 1) (by omega)) ∗ others c) ∗ (∃ r, prngReg c r)) := by
  cases n with
  | zero => exact absurd rfl hz
  | succ n => rfl

/-! ## The proof data and the body obligation -/

/-- The region's proof data on core c: the arrays as found; after the body at point t the x buffer at its block
    and the output buffer at the running sum times 2^-14 (which the pipeline consults on the last band only);
    the invariant above; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => k0_pay3 (accAt V c t.val t.isLt)
  Φ t := inv V c t.val (Nat.le_of_lt_succ t.isLt)
  q _ := fullShare
  owed _ := 0

theorem dat_A (c : Dev nD) (w : Fin cfg0.W) : (dat V c).A w = V c (Pipeline.arrRef spec0 w) := by
  dsimp only [dat]

theorem inv_castSucc (c : Dev nD) (t : Fin cfg0.N) :
    (dat V c).Φ t.castSucc = inv V c t.val (Nat.le_of_lt t.isLt) := by
  dsimp only [dat]; simp only [Fin.coe_castSucc]

theorem after_x (c : Dev nD) (t : Fin cfg0.N) : (dat V c).after 0 t = blk V c 0 t := by dsimp only [dat]
theorem after_out (c : Dev nD) (t : Fin cfg0.N) : (dat V c).after 1 t = k0_pay3 (accAt V c t.val t.isLt) := by dsimp only [dat]

theorem before_x (c : Dev nD) (t : Fin cfg0.N) (d) : (dat V c).before 0 t d = blk V c 0 t :=
  found_x V (dat V c) (dat_A V c 0) (after_x V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4000000 in
/-- The body at any point: the band decides which triple applies; the invariant hands the body the scratch at the
    previous point's sum (at anything at the very first point) and takes it back at this point's. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x]
  rw [show (dat V c).owesAt () t.succ = (dat V c).owesAt () t.castSucc from rfl]
  rw [show (dat V c).Φ t.succ = inv V c (t.val + 1) t.isLt from rfl, inv_succ]
  have hN : t.val < 16 := lt_of_lt_of_eq t.isLt (show cfg0.N = 16 from N_0)
  rw [show (dat V c).leavesExact 0 t = owns (c : Thread nD τ) (st0_0 t) fullShare ((dat V c).after 0 t) from by
    unfold Dat.leavesExact; rw [x_live t], after_x]
  by_cases h0 : t.val % 8 = 0
  · have hf : atFirst (grid0.coords t) := (atFirst_iff t).mpr h0
    have hl : ¬atLast (grid0.coords t) := fun h => by have := (atLast_iff t).mp h; omega
    rw [Dat.leavesExact_idle (dat V c) 1 t (out_idle t hl) (out_noflush t hl)]
    rw [accAt_first V c t h0]
    by_cases hz : t.val = 0
    · rw [inv_castSucc V c t, inv_zero V c _ _ hz, plain_eq]
      iintro ⟨⟨⟨HS, Hoth⟩, Hg⟩, Ho, ⟨%d0, H0⟩, ⟨%d1, H1⟩⟩
      iapply (triple_first c Set.univ _ _ _ _ _ _ _ hf hl (blk V c 0 t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1
    · rw [inv_castSucc V c t, inv_pos V c _ _ hz]
      iintro ⟨⟨⟨HS, Hoth⟩, Hg⟩, Ho, ⟨%d0, H0⟩, ⟨%d1, H1⟩⟩
      iapply (triple_first c Set.univ _ _ _ _ _ _ _ hf hl (blk V c 0 t) _ _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1
  · have hf : ¬atFirst (grid0.coords t) := fun h => h0 ((atFirst_iff t).mp h)
    have hz : t.val ≠ 0 := fun h => h0 (by rw [h])
    rw [accAt_next V c t h0]
    rw [inv_castSucc V c t, inv_pos V c _ _ hz]
    by_cases h7 : t.val % 8 = 7
    · have hl : atLast (grid0.coords t) := (atLast_iff t).mpr h7
      rw [show (dat V c).leavesExact 1 t = owns (c : Thread nD τ) (st0_1 t) fullShare ((dat V c).after 1 t) from by
        unfold Dat.leavesExact; rw [out_live t hl], after_out, accAt_next V c t h0]
      iintro ⟨⟨⟨HS, Hoth⟩, Hg⟩, Ho, ⟨%d0, H0⟩, ⟨%d1, H1⟩⟩
      iapply (triple_last c Set.univ _ _ _ _ _ _ _ hf hl (blk V c 0 t) _ _)
      isplitl [H0]; · iexact H0
      isplitl [H1]; · iexists _; iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexact H1
    · have hl : ¬atLast (grid0.coords t) := fun h => h7 ((atLast_iff t).mp h)
      rw [Dat.leavesExact_idle (dat V c) 1 t (out_idle t hl) (out_noflush t hl)]
      iintro ⟨⟨⟨HS, Hoth⟩, Hg⟩, Ho, ⟨%d0, H0⟩, ⟨%d1, H1⟩⟩
      iapply (triple_mid c Set.univ _ _ _ _ _ _ _ hf hl (blk V c 0 t) _ _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1

/-- The body obligation of the region's proof data, at every point. -/
theorem body_obligation (c : Dev nD) : BodyObligation (dat (F := F) V c) (defs₀ (F := F)) Variants.none () Set.univ := fun t => by
  rw [bigSep_W0, bigSep_W0]
  exact body_at V c t

/-! ## Into and out of the region -/

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the plain one back: what the scratch holds is forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 16 := N_0; omega), plain_eq]
  iintro ⟨⟨HS, Hoth⟩, Hg⟩
  isplitl [HS Hoth]
  · isplitl [HS]; · iexists _; iexact HS
    iexact Hoth
  iexact Hg

end Cert.KernelIdeal.Pool

end
-- ==== Proof.OnIdeal.Scale.lean ====
/-
  The second pallas_call: out = x * gate, one (16, 128, 8, 128) block of x per grid point against the
  (16, 128) block of the gate that belongs to the point's channel tile.

  Everything here is stated at a parameter V, the contents of the core's buffers when the region is entered,
  and at any float instance.  The body reads both input blocks whole, broadcasts the gate over the two
  trailing axes, multiplies, and stores the product over the whole output block; it keeps nothing between
  points.  So after the body at point t the output's staging buffer holds `scaled` of the two input blocks at
  t, the input buffers are as found, and the region's invariant is the plain one (the scoped buffers the
  pipeline does not stage, and the generator register, untouched).
-/
import proofs.«159613_j44547400794189_1_alg».proof.Proof.Gen.KernelIdeal.Launch
import proofs.«159613_j44547400794189_1_alg».proof.Proof.Gen.KernelIdeal.Skeleton
import proofs.«159613_j44547400794189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks a point sees -/

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds the point's block of x whenever the body runs: the body leaves it in place,
    and where the pipeline does not fetch, the block index has not moved. -/
theorem found_x {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the gate window, which is fetched only when the channel tile changes. -/
theorem found_g {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body leaves in the output block -/

/-- The whole (16, 128, 8, 128) block and the whole (16, 128) block, as the body's load and store rectangles. -/
abbrev xbox : Rect S16x128x8x128 := Rect.unit (s := S16x128x8x128) ![0, 0, 0, 0] S16x128x8x128.size inb_S16x128x8x128_S16x128x8x128_0_0_0_0
abbrev gbox : Rect S16x128 := Rect.unit (s := S16x128) ![0, 0] S16x128.size inb_S16x128_S16x128_0_0

/-- The output block after the body, from the two input blocks: its one store, x times the gate broadcast over
    the trailing axes, laid over the whole block. -/
def scaled (x0 : Vec F S16x128x8x128 .f32) (g0 : Vec F S16x128 .f32) : Vec F S16x128x8x128 .f32 :=
  View.canon [⟨xbox, k1_pay1 (View.ld g0 gbox) (View.ld x0 xbox)⟩]

/-- That store covers the block. -/
theorem scaled_cover (p0 : Vec F S16x128x8x128 .f32) (y : S16x128x8x128.Idx) :
    ∃ pc ∈ ([⟨xbox, p0⟩] : List (View.Piece (Elt F) S16x128x8x128 .f32)), y ∈ pc.1.set :=
  View.cover_of_tiled [⟨xbox, p0⟩] S16x128x8x128.size (by rfl) y

/-! ## The body's triple -/

set_option maxHeartbeats 1000000 in
/-- On whole staging memrefs, x's at x0 and the gate's at g0 and the output's at anything, the body runs to the
    continuation with the inputs as they were and the output at `scaled x0 g0`. -/
theorem body_triple (c : Dev nD) (E : Set ℕ) (i : grid1.Coords) (arg2 : Memref sig .tc .vmem S16x128x8x128 .f32) (harg2 : arg2.IsWhole)
    (arg3 : Memref sig .tc .vmem S16x128 .f32) (harg3 : arg3.IsWhole) (arg4 : Memref sig .tc .vmem S16x128x8x128 .f32) (harg4 : arg4.IsWhole)
    (x0 : Vec F S16x128x8x128 .f32) (g0 : Vec F S16x128 .f32) (K : PUnit → sProp 𝕄) :
    iprop(owns (c : Thread nD τ) arg2 fullShare x0 ∗ owns (c : Thread nD τ) arg3 fullShare g0 ∗ (∃ d, owns (c : Thread nD τ) arg4 fullShare d)
        ∗ (iprop(owns (c : Thread nD τ) arg2 fullShare x0 ∗ owns (c : Thread nD τ) arg3 fullShare g0 ∗ owns (c : Thread nD τ) arg4 fullShare (scaled x0 g0)) -∗ K ⟨⟩))
      ⊢ wp frame (wpE (defs₀ (F := F)) Variants.none c none) E (cc1_kernel i arg2 harg2 arg3 harg3 arg4 harg4) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled_cover _)

/-! ## The proof data and the body obligation -/

/-- The region's proof data on core c: the arrays as found; after the body at point t the inputs' buffers at
    their blocks and the output's at `scaled` of them; the plain invariant; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => scaled (blk V c 0 t) (blk V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem after_x (c : Dev nD) (t : Fin cfg1.N) : (dat V c).after 0 t = blk V c 0 t := by dsimp only [dat]
theorem after_g (c : Dev nD) (t : Fin cfg1.N) : (dat V c).after 1 t = blk V c 1 t := by dsimp only [dat]
theorem after_out (c : Dev nD) (t : Fin cfg1.N) : (dat V c).after 2 t = scaled (blk V c 0 t) (blk V c 1 t) := by dsimp only [dat]

theorem before_x (c : Dev nD) (t : Fin cfg1.N) (d) : (dat V c).before 0 t d = blk V c 0 t :=
  found_x V (dat V c) (dat_A V c 0) (after_x V c) t d
theorem before_g (c : Dev nD) (t : Fin cfg1.N) (d) : (dat V c).before 1 t d = blk V c 1 t :=
  found_g V (dat V c) (dat_A V c 1) (after_g V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_g]
  rw [show (dat V c).Φ t.succ = (dat V c).Φ t.castSucc from rfl,
    show (dat V c).owesAt () t.succ = (dat V c).owesAt () t.castSucc from rfl,
    after_x, after_g, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's proof data, at every point. -/
theorem body_obligation (c : Dev nD) : BodyObligation (dat (F := F) V c) (defs₀ (F := F)) Variants.none () Set.univ := fun t => by
  rw [bigSep_W1, bigSep_W1]
  exact body_at V c t

end Cert.KernelIdeal.Scale

end
-- ==== Proof.OnIdeal.Whole.lean ====
/-
  The whole program: pool, then the gate network on the host, then scale.

  The contents of the core's buffers are followed from the launch through the three items of @main: `W0` at
  launch; `W1` after the pool region (its arrays at what the pipeline's write-backs leave, everything else as
  before); `W2` after the 27 host operations of the gate network; `W3` after the scale region.  Each region is
  entered with every unscoped buffer held at the boundary's contents, the generator register at some state
  and nothing owed, and left the same way at the next boundary's contents.  `run_all` is the launch: every
  weakly fair execution terminates and every unscoped buffer ends at `W3`.  The frame reads the five argument
  arrays off it (no item writes one); a value claim reads the result array.
-/
import proofs.«159613_j44547400794189_1_alg».proof.Proof.Gen.KernelIdeal.Launch
import proofs.«159613_j44547400794189_1_alg».proof.Proof.Gen.KernelIdeal.Skeleton
import proofs.«159613_j44547400794189_1_alg».proof.Proof.Gen.KernelIdeal.Points
import proofs.«159613_j44547400794189_1_alg».proof.Proof.Gen.KernelIdeal.Regions
import proofs.«159613_j44547400794189_1_alg».proof.Proof.OnIdeal.Pool
import proofs.«159613_j44547400794189_1_alg».proof.Proof.OnIdeal.Scale
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same read at the TensorCore's references: what the pool region's proof data take. -/
abbrev V0 : (c : Dev nD) → (b : Ref sig .tc) → Buf (Elt F) ((c : Thread nD τ).loc b) := fun c b => W0 m c b

/-- After the pool region: its arrays at what the pipeline leaves, every other buffer as entered. -/
def W1 (c : Dev nD) : Valuation τ sig (Elt F) :=
  Pipeline.withArrays spec0 c (W0 m c) fun w => (Pool.dat (V0 m) c).arrAt w cfg0.N
theorem W1_arr (c : Dev nD) (w : Fin cfg0.W) :
    W1 m c (Proc.devRef .tc (Pipeline.arrRef spec0 w)) = (Pool.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem exit0_arr (c : Dev nD) (w : Fin cfg0.W) : (Pool.dat (V0 m) c).arrAt w cfg0.N = V1 m c (Pipeline.arrRef spec0 w) :=
  (W1_arr m c w).symm
theorem exit0_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the gate network's host operations: what the scale region is entered with. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- A buffer no host operation writes is as the pool region left it. -/
theorem W2_of (c : Dev nD) (r : Ref sig .tc) (h : r ∉ hostOps1_W) : W2 m c r = W1 m c r :=
  StableHlo.after_of_writes_sub hostOps1 _ hostOps1_writes h

/-- After the scale region. -/
def W3 (c : Dev nD) : Valuation τ sig (Elt F) :=
  Pipeline.withArrays spec1 c (W2 m c) fun w => (Scale.dat (V2 m) c).arrAt w cfg1.N
theorem W3_arr (c : Dev nD) (w : Fin cfg1.W) :
    W3 m c (Proc.devRef .tc (Pipeline.arrRef spec1 w)) = (Scale.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1_arr (c : Dev nD) (w : Fin cfg1.W) : (Scale.dat (V2 m) c).arrAt w cfg1.N = V3 m c (Pipeline.arrRef spec1 w) :=
  (W3_arr m c w).symm
theorem exit1_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- x is an input window of both regions: each leaves an input's array as it found it; no host operation writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((Scale.dat (V2 m) c).arrAt_in 0 rfl _).trans (Scale.dat_A (V2 m) c 0))
    _ = W1 m c (Proc.devRef .tc main_arg0) := W2_of m c main_arg0 (by decide)
    _ = W0 m c (Proc.devRef .tc main_arg0) := (W1_arr m c 0).trans (((Pool.dat (V0 m) c).arrAt_in 0 rfl _).trans (Pool.dat_A (V0 m) c 0))
    _ = m ((c : Thread nD τ).loc main_arg0) := rfl

/-- The weights and biases are no window's array and no host operation's result. -/
theorem W3_main_arg1 (c : Dev nD) : W3 m c (Proc.devRef .tc main_arg1) = m ((c : Thread nD τ).loc main_arg1) :=
  (W3_of_ne m c main_arg1 (by decide)).trans ((W2_of m c main_arg1 (by decide)).trans ((W1_of_ne m c main_arg1 (by decide)).trans rfl))
theorem W3_main_arg2 (c : Dev nD) : W3 m c (Proc.devRef .tc main_arg2) = m ((c : Thread nD τ).loc main_arg2) :=
  (W3_of_ne m c main_arg2 (by decide)).trans ((W2_of m c main_arg2 (by decide)).trans ((W1_of_ne m c main_arg2 (by decide)).trans rfl))
theorem W3_main_arg3 (c : Dev nD) : W3 m c (Proc.devRef .tc main_arg3) = m ((c : Thread nD τ).loc main_arg3) :=
  (W3_of_ne m c main_arg3 (by decide)).trans ((W2_of m c main_arg3 (by decide)).trans ((W1_of_ne m c main_arg3 (by decide)).trans rfl))
theorem W3_main_arg4 (c : Dev nD) : W3 m c (Proc.devRef .tc main_arg4) = m ((c : Thread nD τ).loc main_arg4) :=
  (W3_of_ne m c main_arg4 (by decide)).trans ((W2_of m c main_arg4 (by decide)).trans ((W1_of_ne m c main_arg4 (by decide)).trans rfl))

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Pool.dat (V0 m) c
  | ⟨1, _⟩ => fun c => Scale.dat (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at W3, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The pool region: entered from every unscoped buffer at W0, left at W1.  Its arrays are split out of the unscoped
    buffers and put back at the exit contents; the generator register goes into the invariant and comes back; the
    scratch's running sum is forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hplain : iprop(Pipeline.scopedRest spec0 c ∗ ∃ r, prngReg c r) ⊢ ((pdats m 0 c).Φ 0 : sProp 𝕄) := by
      have h := Pool.inv_in (V0 m) c
      unfold Pipeline.ΦA at h
      exact h
    iintro ⟨Hp, -, Hr⟩
    iapply hplain
    isplitl [Hr]; · iexact Hr
    iexact Hp
  hout c := by
    rw [Pipeline.ownSems0_none]
    have hplain : ((pdats m 0 c).Φ (Fin.last _) : sProp 𝕄) ⊢ iprop(Pipeline.scopedRest spec0 c ∗ ∃ r, prngReg c r) := by
      have h := Pool.inv_out (V0 m) c
      unfold Pipeline.ΦA at h
      exact h
    have hsort : iprop(Pipeline.scopedRest spec0 c ∗ ∃ r, prngReg c r)
        ⊢ (iprop((∃ r, prngReg c r) ∗ emp ∗ Pipeline.scopedRest spec0 c) : sProp 𝕄) := by
      iintro ⟨Hr, Hp⟩
      isplitl [Hp]; · iexact Hp
      isplitr; · iempintro
      iexact Hr
    exact hplain.trans hsort
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scale region: entered from every unscoped buffer at W2, left at W3, which the launch reads at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scale.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN.  From any memory with zero counters, every weakly fair execution of @main on the TensorCores terminates,
    nothing faulting, and in every final state each unscoped buffer holds the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Whole

end
-- ==== Proof.OnIdeal.ScaleValue.lean ====
/-
  What the scale region leaves in its result array, at the extended reals: entry (b, ch, h, w) of x times the
  gate's entry (b, ch).  The region's 32 grid points each write one (16, 128, 8, 128) block; the blocks tile
  the array, and on its block every point stores the product of its x block with its gate block broadcast over
  the two trailing axes.
-/
import proofs.«159613_j44547400794189_1_alg».proof.Proof.Gen.KernelIdeal.Launch
import proofs.«159613_j44547400794189_1_alg».proof.Proof.Gen.KernelIdeal.Skeleton
import proofs.«159613_j44547400794189_1_alg».proof.Proof.Gen.KernelIdeal.Points
import proofs.«159613_j44547400794189_1_alg».proof.Proof.OnIdeal.Scale
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.ScaleValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- x scaled by a per-(batch, channel) gate, index by index. -/
def gated (x : Vec Ideal S16x256x128x128 .f32) (g : Vec Ideal S16x256 .f32) : Vec Ideal S16x256x128x128 .f32 :=
  fun j => x j * g (ix2 (j 0) (j 1))

/-! ## The body's product at an index -/

/-- The whole-block rectangles start at zero on every axis. -/
theorem zero4 : (![0, 0, 0, 0] : Fin 4 → Nat) = fun _ => 0 := funext fun a => by fin_cases a <;> rfl
theorem zero2 : (![0, 0] : Fin 2 → Nat) = fun _ => 0 := funext fun a => by fin_cases a <;> rfl

/-- An [a, b] array cast to [a, b, 1, 1] reads, at (i, j, u, v), the operand at (i, j): both sit at row-major
    position i * b + j. -/
theorem shapeCast_ab_ab11_apply {α : Type} {a b : ℕ} (x : (⟨2, ![a, b]⟩ : Shape).Idx → α)
    (h : (⟨2, ![a, b]⟩ : Shape).ShapeCasts ⟨4, ![a, b, 1, 1]⟩) (i : Fin a) (j : Fin b) (u v : Fin 1) :
    shapeCast ⟨4, ![a, b, 1, 1]⟩ x h (ix4 i j u v) = x (ix2 i j) :=
  shapeCast_apply x h _ _ (by
    have hu : u.val = 0 := by omega
    have hv : v.val = 0 := by omega
    rw [Shape.rowMajor_val_four, Shape.rowMajor_val_two]
    show i.val * b + j.val = ((i.val * b + j.val) * 1 + u.val) * 1 + v.val
    rw [hu, hv, Nat.add_zero, Nat.mul_one, Nat.add_zero, Nat.mul_one])

/-- An [a, b, 1, 1] array broadcast to [a, b, m, n] reads, at (i, j, r, s), the operand at (i, j, 0, 0). -/
theorem broadcastTo_ab11_abmn_apply {α : Type} {a b m n : ℕ} (x : (⟨4, ![a, b, 1, 1]⟩ : Shape).Idx → α)
    (h : (⟨4, ![a, b, 1, 1]⟩ : Shape).Broadcasts ⟨4, ![a, b, m, n]⟩) (i : Fin a) (j : Fin b) (r : Fin m) (s : Fin n) :
    broadcastTo ⟨4, ![a, b, m, n]⟩ x h (ix4 i j r s) = x (ix4 i j (0 : Fin 1) (0 : Fin 1)) := by
  refine broadcastTo_apply x h (ix4 i j r s) (ix4 i j (0 : Fin 1) (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ => rfl

/-- The body's stored value at (p, q, r, s): the x block there times the gate block at (p, q). -/
theorem pay_apply (g0 : Vec Ideal S16x128 .f32) (x0 : Vec Ideal S16x128x8x128 .f32)
    (p : Fin 16) (q : Fin 128) (r : Fin 8) (s : Fin 128) :
    k1_pay1 g0 x0 (ix4 p q r s) = x0 (ix4 p q r s) * g0 (ix2 p q) := by
  unfold k1_pay1
  show x0 (ix4 p q r s) * broadcastTo S16x128x8x128 (shapeCast S16x128x1x1 (shapeCast S16x128x1x1
      (shapeCast S16x128 g0 shapeCasts_S16x128_S16x128) shapeCasts_S16x128_S16x128x1x1) shapeCasts_S16x128x1x1_S16x128x1x1)
      broadcasts_S16x128x1x1_S16x128x8x128 (ix4 p q r s) = _
  rw [shapeCast_self, shapeCast_self, broadcastTo_ab11_abmn_apply, shapeCast_ab_ab11_apply]

/-- The output block after the body at (p, q, r, s), from the two input blocks. -/
theorem scaled_apply (x0 : Vec Ideal S16x128x8x128 .f32) (g0 : Vec Ideal S16x128 .f32)
    (p : Fin 16) (q : Fin 128) (r : Fin 8) (s : Fin 128) :
    Scale.scaled x0 g0 (ix4 p q r s) = x0 (ix4 p q r s) * g0 (ix2 p q) := by
  unfold Scale.scaled
  rw [View.canon_unit_zero zero4, View.ld_unit_zero (S := S16x128x8x128) zero4, View.ld_unit_zero (S := S16x128) zero2]
  exact pay_apply g0 x0 p q r s

/-- The same at any index of the block. -/
theorem scaled_at (x0 : Vec Ideal S16x128x8x128 .f32) (g0 : Vec Ideal S16x128 .f32) (j : S16x128x8x128.Idx) :
    Scale.scaled x0 g0 j = x0 j * g0 (ix2 (j 0) (j 1)) :=
  (congrArg (Scale.scaled x0 g0) (eq_ix4 j)).trans
    ((scaled_apply x0 g0 (j 0) (j 1) (j 2) (j 3)).trans
      (congrArg (fun k => x0 k * g0 (ix2 (j 0) (j 1))) (eq_ix4 j).symm))

/-- The gated array at i reads the gate at any index with i's first two coordinates. -/
theorem gated_at (x : Vec Ideal S16x256x128x128 .f32) (g : Vec Ideal S16x256 .f32) (i : S16x256x128x128.Idx)
    (k : S16x256.Idx) (h0 : (k 0).val = (i 0).val) (h1 : (k 1).val = (i 1).val) : gated x g i = x i * g k :=
  congrArg (fun k' => x i * g k') (Shape.idx_ext₂ h0.symm h1.symm)

/-! ## From the points' blocks to the array -/

/-- The index maps over the 32 points: the x block and the result block sit at the same block index; the gate block
    sits at the result block's index on the batch and channel axes; the result's block index is (0, tile, band, 0)
    with tile below 2 and band below 16. -/
theorem index_facts : ∀ t : Fin cfg1.N,
    win1_0.index t (0 : Fin 4) = win1_2.index t (0 : Fin 4)
    ∧ win1_0.index t (1 : Fin 4) = win1_2.index t (1 : Fin 4)
    ∧ win1_0.index t (2 : Fin 4) = win1_2.index t (2 : Fin 4)
    ∧ win1_0.index t (3 : Fin 4) = win1_2.index t (3 : Fin 4)
    ∧ win1_1.index t (0 : Fin 2) = win1_2.index t (0 : Fin 4)
    ∧ win1_1.index t (1 : Fin 2) = win1_2.index t (1 : Fin 4)
    ∧ win1_2.index t (0 : Fin 4) = 0 ∧ win1_2.index t (1 : Fin 4) ≤ 1
    ∧ win1_2.index t (2 : Fin 4) ≤ 15 ∧ win1_2.index t (3 : Fin 4) = 0 :=
  (by decide +kernel : ∀ t : Fin grid1.N, _)

/-- Every (tile, band) is some point's block index. -/
theorem index_onto : ∀ (q1 : Fin 2) (q2 : Fin 16), ∃ t : Fin cfg1.N, win1_2.index t = ![0, q1.val, q2.val, 0] :=
  (by decide +kernel : ∀ (q1 : Fin 2) (q2 : Fin 16), ∃ t : Fin grid1.N, win1_2.index t = ![0, q1.val, q2.val, 0])

/-- At point t and block index j, what the body stores is the gated array at j's place in the result array. -/
theorem point_eq (c : Dev nD) (t : Fin cfg1.N) (j : S16x128x8x128.Idx) :
    Scale.scaled (Scale.blk (F := Ideal) V c 0 t) (Scale.blk (F := Ideal) V c 1 t) j
      = gated (V c main_arg0) (V c main_v23) (((cfg1.win 2).blk t).view.emb j) := by
  obtain ⟨e0, e1, e2, e3, g0, g1, -⟩ := index_facts t
  have h0 : ((cfg1.win 0).blk t).view.emb j = ((cfg1.win 2).blk t).view.emb j := by
    funext a; apply Fin.ext
    match a with
    | ⟨0, _⟩ => show win1_0.index t (0 : Fin 4) * 16 + 1 * (j 0).val = win1_2.index t (0 : Fin 4) * 16 + 1 * (j 0).val; rw [e0]
    | ⟨1, _⟩ => show win1_0.index t (1 : Fin 4) * 128 + 1 * (j 1).val = win1_2.index t (1 : Fin 4) * 128 + 1 * (j 1).val; rw [e1]
    | ⟨2, _⟩ => show win1_0.index t (2 : Fin 4) * 8 + 1 * (j 2).val = win1_2.index t (2 : Fin 4) * 8 + 1 * (j 2).val; rw [e2]
    | ⟨3, _⟩ => show win1_0.index t (3 : Fin 4) * 128 + 1 * (j 3).val = win1_2.index t (3 : Fin 4) * 128 + 1 * (j 3).val; rw [e3]
  refine (scaled_at _ _ j).trans ?_
  refine Eq.trans ?_ (gated_at (V c main_arg0) (V c main_v23) (((cfg1.win 2).blk t).view.emb j)
    (((cfg1.win 1).blk t).view.emb (ix2 (j 0) (j 1))) ?_ ?_).symm
  · rw [← h0]; rfl
  · show win1_1.index t (0 : Fin 2) * 16 + 1 * (j 0).val = win1_2.index t (0 : Fin 4) * 16 + 1 * (j 0).val
    rw [g0]
  · show win1_1.index t (1 : Fin 2) * 128 + 1 * (j 1).val = win1_2.index t (1 : Fin 4) * 128 + 1 * (j 1).val
    rw [g1]

/-- What point t writes back is block t of the gated array. -/
theorem flushed_eq (c : Dev nD) (t : Fin cfg1.N) :
    (Scale.dat (F := Ideal) V c).flushed 2 t
      = ((cfg1.win 2).blk t).view.read (Elt Ideal) (gated (V c main_arg0) (V c main_v23)) := by
  show (cfg1.win 2).cut (grid1.coords t) ((Scale.dat (F := Ideal) V c).after 2 t) = _
  rw [Scale.after_out]
  funext j
  exact point_eq V c t j

/-- An index of the result array is in point t's block iff each coordinate is in the block's range on its axis. -/
theorem mem_blk (t : Fin cfg1.N) (i : S16x256x128x128.Idx) :
    i ∈ ((cfg1.win 2).blk t).view.set ↔ ∀ a : Fin 4, win1_2.index t a * S16x128x8x128.size a ≤ (i a).val
      ∧ (i a).val < win1_2.index t a * S16x128x8x128.size a + S16x128x8x128.size a := by
  show i ∈ ((View.whole main_v24).slice (win1_2.rect t)).set ↔ _
  rw [View.set_slice_whole, Rect.mem_set_unit]
  exact Iff.rfl

/-- The 32 blocks cover the result array: index (b, ch, h, w) is in the block of tile ch / 128 and band h / 8. -/
theorem cover (i : S16x256x128x128.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := index_onto ⟨(i 1).val / 128, by omega⟩ ⟨(i 2).val / 8, by omega⟩
  have q0 : win1_2.index t (0 : Fin 4) = 0 := congrFun ht 0
  have q1 : win1_2.index t (1 : Fin 4) = (i 1).val / 128 := congrFun ht 1
  have q2 : win1_2.index t (2 : Fin 4) = (i 2).val / 8 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 16 ≤ (i 0).val ∧ (i 0).val < win1_2.index t (0 : Fin 4) * 16 + 16; omega
  | ⟨1, _⟩ => show win1_2.index t (1 : Fin 4) * 128 ≤ (i 1).val ∧ (i 1).val < win1_2.index t (1 : Fin 4) * 128 + 128; omega
  | ⟨2, _⟩ => show win1_2.index t (2 : Fin 4) * 8 ≤ (i 2).val ∧ (i 2).val < win1_2.index t (2 : Fin 4) * 8 + 8; omega
  | ⟨3, _⟩ => show win1_2.index t (3 : Fin 4) * 128 ≤ (i 3).val ∧ (i 3).val < win1_2.index t (3 : Fin 4) * 128 + 128; omega

/-- After all 32 points the result array is x times the gate, whatever the contents V the region was entered with. -/
theorem result (c : Dev nD) :
    (Scale.dat (F := Ideal) V c).arrAt 2 cfg1.N = gated (V c main_arg0) (V c main_v23) :=
  (Scale.dat (F := Ideal) V c).arrAt_eq_of_cover 2 (gated (V c main_arg0) (V c main_v23))
    (fun t _ => flushed_eq V c t) cover

end Cert.KernelIdeal.ScaleValue

end
-- ==== Proof.PoolSpec.lean ====
/-
  The mathematics both programs share, stated once over literal shapes and with no program in sight.

  The squeeze-and-excite block averages x over its two trailing axes (128 x 128 = 16384 entries per
  (batch, channel) pair), pushes the averages through a small gate network, and multiplies x by the gate.
  The kernel forms the average as (sum) * 2^-14, the reference as (sum) / 16384.  On the extended reals these
  are one function: 2^-14 is an exact binary float, and a quotient by a nonzero real IS the product with its
  reciprocal at every extended real, infinite ones included.  `pooled` is that common value.
-/
import Idealize.ShloMosaic.PureOps.Ideal
import Idealize.ShloMosaic.Lib.ValueIdx

noncomputable section

namespace Cert.SE

open Idealize.ShloMosaic Idealize.ShloMosaic.ValueIdx

/-- The word of +0.0 denotes 0. -/
theorem ofBits_zero : Ideal.ofBits .f32 0x00000000#32 = 0 := by
  simp [Ideal.ofBits, Ideal.ieee]

/-- The word 0x38800000 (sign 0, exponent 113, mantissa 0) denotes 2^-14 = 1/16384 exactly. -/
theorem ofBits_inv_hw : Ideal.ofBits .f32 0x38800000#32 = (((16384 : ℝ)⁻¹ : ℝ) : EReal) := by
  simp [Ideal.ofBits, Ideal.ieee, -EReal.coe_mul]; norm_num

/-- The word 0x46800000 (exponent 141, mantissa 0) denotes 2^14 = 16384 exactly. -/
theorem ofBits_hw : Ideal.ofBits .f32 0x46800000#32 = ((16384 : ℝ) : EReal) := by
  simp [Ideal.ofBits, Ideal.ieee, -EReal.coe_mul]; norm_num

/-- The average of x over its two trailing axes, at a (batch, channel) pair: the sum of the 128 x 128 entries
    times the reciprocal of their number. -/
def pooled (x : Vec Ideal ⟨4, ![16, 256, 128, 128]⟩ .f32) : Vec Ideal ⟨2, ![16, 256]⟩ .f32 :=
  fun j => (∑ h : Fin 128, ∑ w : Fin 128, x (ix4 (j 0) (j 1) h w)) * (((16384 : ℝ)⁻¹ : ℝ) : EReal)

end Cert.SE

end
-- ==== Proof.OnIdeal.PoolPay.lean ====
/-
  The pool body's three stored values read at an index, at the extended reals, and the one piece of sum algebra the
  region needs: a sum over 128 rows is the sum over 8 bands of the sums over each band's 16 rows.
-/
import proofs.«159613_j44547400794189_1_alg».proof.Proof.Gen.KernelIdeal.Launch
import proofs.«159613_j44547400794189_1_alg».proof.Proof.Gen.KernelIdeal.Skeleton
import proofs.«159613_j44547400794189_1_alg».proof.Proof.Gen.KernelIdeal.Points
import proofs.«159613_j44547400794189_1_alg».proof.Proof.PoolSpec
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.PoolPay

open Idealize.ShloMosaic Idealize.ShloMosaic.TcCoe Idealize.ShloMosaic.ValueIdx
open Cert.KernelIdeal Cert.KernelIdeal.Gen

/-- The zeroing store writes 0 everywhere. -/
theorem pay1_apply (j : S16x128.Idx) : k0_pay1 (F := Ideal) j = 0 := by
  unfold k0_pay1
  rw [shapeCast_self, broadcast_apply, Ideal.ofBits_def]
  exact Cert.SE.ofBits_zero

/-- The accumulating store: the scratch entry plus the block's sum over its 16 rows and 128 lanes. -/
theorem pay2_apply (x : Vec Ideal S16x128x16x128 .f32) (s : Vec Ideal S16x128 .f32) (b : Fin 16) (cl : Fin 128) :
    k0_pay2 (F := Ideal) x s (ix2 b cl) = s (ix2 b cl) + ∑ hh : Fin 16, ∑ w : Fin 128, x (ix4 b cl hh w) := by
  unfold k0_pay2
  rw [shapeCast_self, addf_apply]
  congr 1
  refine (Ideal.multiReduction_add_single _ _ _ _ _ _).trans ?_
  refine Finset.sum_congr rfl fun hh _ => ?_
  refine (Ideal.multiReduction_add_single _ _ _ _ _ _).trans ?_
  refine Finset.sum_congr rfl fun w _ => ?_
  refine congrArg x (funext fun a => ?_)
  fin_cases a <;> exact Fin.ext rfl

/-- The final store: the running sum times 2^-14. -/
theorem pay3_apply (a : Vec Ideal S16x128 .f32) (j : S16x128.Idx) :
    k0_pay3 (F := Ideal) a j = a j * (((16384 : ℝ)⁻¹ : ℝ) : EReal) := by
  unfold k0_pay3
  rw [mulf_apply, broadcast_apply, Ideal.ofBits_def, Cert.SE.ofBits_inv_hw]

/-- Row 16 k + hh of band k. -/
abbrev rowOf (k : Fin 8) (hh : Fin 16) : Fin 128 := ⟨16 * k.val + hh.val, by omega⟩

/-- A sum over the 128 rows, band by band. -/
theorem sum_rows_by_band (f : Fin 128 → EReal) : ∑ h : Fin 128, f h = ∑ k : Fin 8, ∑ hh : Fin 16, f (rowOf k hh) := by
  calc ∑ h : Fin 128, f h
      = ∑ p : Fin 8 × Fin 16, f (finProdFinEquiv (m := 8) (n := 16) p) :=
        (Equiv.sum_comp (finProdFinEquiv (m := 8) (n := 16)) f).symm
    _ = ∑ k : Fin 8, ∑ hh : Fin 16, f (rowOf k hh) := by
        rw [Fintype.sum_prod_type]
        refine Finset.sum_congr rfl fun k _ => Finset.sum_congr rfl fun hh _ => ?_
        refine congrArg f (Fin.ext ?_)
        show hh.val + 16 * k.val = 16 * k.val + hh.val
        omega

end Cert.KernelIdeal.PoolPay

end
-- ==== Proof.OnIdeal.PoolValue.lean ====
/-
  What the pool region leaves in its result array, at the extended reals: at (b, ch) the sum of x over the
  128 x 128 trailing entries times 2^-14, that is `pooled`.  The running sum after band k of a channel tile is
  the sum over the row bands 0..k; the last band's point stores it times 2^-14 into the (16, 128) block of its
  tile, and the two tiles' blocks cover the (16, 256) array.
-/
import proofs.«159613_j44547400794189_1_alg».proof.Proof.Gen.KernelIdeal.Launch
import proofs.«159613_j44547400794189_1_alg».proof.Proof.Gen.KernelIdeal.Skeleton
import proofs.«159613_j44547400794189_1_alg».proof.Proof.Gen.KernelIdeal.Points
import proofs.«159613_j44547400794189_1_alg».proof.Proof.OnIdeal.Pool
import proofs.«159613_j44547400794189_1_alg».proof.Proof.OnIdeal.PoolPay
import proofs.«159613_j44547400794189_1_alg».proof.Proof.PoolSpec
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.PoolValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block of x and the array, at their literal types -/

/-- The x block the point t sees. -/
abbrev xblk (c : Dev nD) (t : Fin cfg0.N) : Vec Ideal S16x128x16x128 .f32 := Pool.blk V c 0 t
/-- The array x as the region finds it. -/
abbrev xarr (c : Dev nD) : Vec Ideal S16x256x128x128 .f32 := V c main_arg0

/-- The block index of x at point t = 8 * tile + band is (0, tile, band, 0); -/
theorem idx_x : ∀ t : Fin cfg0.N, win0_0.index t (0 : Fin 4) = 0 ∧ win0_0.index t (1 : Fin 4) = t.val / 8
    ∧ win0_0.index t (2 : Fin 4) = t.val % 8 ∧ win0_0.index t (3 : Fin 4) = 0 :=
  (by decide +kernel : ∀ t : Fin grid0.N, win0_0.index t (0 : Fin 4) = 0 ∧ win0_0.index t (1 : Fin 4) = t.val / 8
    ∧ win0_0.index t (2 : Fin 4) = t.val % 8 ∧ win0_0.index t (3 : Fin 4) = 0)

/-- that of the result is (0, tile). -/
theorem idx_out : ∀ t : Fin cfg0.N, win0_1.index t (0 : Fin 2) = 0 ∧ win0_1.index t (1 : Fin 2) = t.val / 8 :=
  (by decide +kernel : ∀ t : Fin grid0.N, win0_1.index t (0 : Fin 2) = 0 ∧ win0_1.index t (1 : Fin 2) = t.val / 8)

/-- The x block at point t, read at (b, cl, hh, w), is x at (b, 128 * tile + cl, 16 * band + hh, w). -/
theorem xblk_apply (c : Dev nD) (t : Fin cfg0.N) (b : Fin 16) (cl : Fin 128) (hh : Fin 16) (w : Fin 128)
    (ch : Fin 256) (h : Fin 128) (hch : ch.val = 128 * (t.val / 8) + cl.val) (hh' : h.val = 16 * (t.val % 8) + hh.val) :
    xblk V c t (ix4 b cl hh w) = xarr V c (ix4 b ch h w) := by
  obtain ⟨e0, e1, e2, e3⟩ := idx_x t
  show V c main_arg0 (((cfg0.win 0).blk t).view.emb (ix4 b cl hh w)) = V c main_arg0 (ix4 b ch h w)
  congr 1
  funext a
  apply Fin.ext
  match a with
  | ⟨0, _⟩ => show win0_0.index t (0 : Fin 4) * 16 + 1 * b.val = b.val; omega
  | ⟨1, _⟩ => show win0_0.index t (1 : Fin 4) * 128 + 1 * cl.val = ch.val; omega
  | ⟨2, _⟩ => show win0_0.index t (2 : Fin 4) * 16 + 1 * hh.val = h.val; omega
  | ⟨3, _⟩ => show win0_0.index t (3 : Fin 4) * 128 + 1 * w.val = w.val; omega

/-! ## The running sum -/

/-- The sum of x over row band k (rows 16 k .. 16 k + 15) and all lanes, at a (batch, channel) pair; 0 past the bands. -/
def bandSum (x : Vec Ideal S16x256x128x128 .f32) (b : Fin 16) (ch : Fin 256) (k : ℕ) : EReal :=
  if hk : k < 8 then ∑ hh : Fin 16, ∑ w : Fin 128, x (ix4 b ch (PoolPay.rowOf ⟨k, hk⟩ hh) w) else 0

/-- After the point 8 * tile + band the scratch holds, at (b, cl), the sum of x at (b, 128 * tile + cl) over the row
    bands 0 .. band. -/
theorem accAt_eq (c : Dev nD) : ∀ (n : ℕ) (hn : n < cfg0.N) (b : Fin 16) (cl : Fin 128) (ch : Fin 256),
    ch.val = 128 * (n / 8) + cl.val →
    Pool.accAt (F := Ideal) V c n hn (ix2 b cl) = ∑ k ∈ Finset.range (n % 8 + 1), bandSum (xarr V c) b ch k := by
  intro n
  induction n using Nat.strong_induction_on with
  | _ n ih =>
    intro hn b cl ch hch
    have hN : n < 16 := lt_of_lt_of_eq hn (show cfg0.N = 16 from N_0)
    have hband : n % 8 < 8 := Nat.mod_lt _ (by decide)
    have hblock : (∑ hh : Fin 16, ∑ w : Fin 128, xblk V c ⟨n, hn⟩ (ix4 b cl hh w)) = bandSum (xarr V c) b ch (n % 8) := by
      unfold bandSum
      rw [dif_pos hband]
      refine Finset.sum_congr rfl fun hh _ => Finset.sum_congr rfl fun w _ => ?_
      exact xblk_apply V c ⟨n, hn⟩ b cl hh w ch (PoolPay.rowOf ⟨n % 8, hband⟩ hh) hch rfl
    by_cases h0 : n % 8 = 0
    · rw [Pool.accAt_first V c ⟨n, hn⟩ h0]
      refine (PoolPay.pay2_apply (xblk V c ⟨n, hn⟩) (k0_pay1 (F := Ideal)) b cl).trans ?_
      rw [PoolPay.pay1_apply, hblock, h0, zero_add, Finset.sum_range_one]
    · rw [Pool.accAt_next V c ⟨n, hn⟩ h0]
      refine (PoolPay.pay2_apply (xblk V c ⟨n, hn⟩) (Pool.accAt V c (n - 1) (Nat.lt_of_le_of_lt (Nat.sub_le _ _) hn)) b cl).trans ?_
      rw [ih (n - 1) (by omega) (Nat.lt_of_le_of_lt (Nat.sub_le _ _) hn) b cl ch (by omega), hblock]
      rw [show (n - 1) % 8 + 1 = n % 8 from by omega]
      exact (Finset.sum_range_succ _ _).symm

/-! ## What the last band's point writes back -/

/-- The eight band sums make the sum over all 128 rows. -/
theorem sum_bands (x : Vec Ideal S16x256x128x128 .f32) (b : Fin 16) (ch : Fin 256) :
    ∑ k ∈ Finset.range 8, bandSum x b ch k = ∑ h : Fin 128, ∑ w : Fin 128, x (ix4 b ch h w) := by
  rw [PoolPay.sum_rows_by_band (fun h => ∑ w : Fin 128, x (ix4 b ch h w)), Finset.sum_range]
  refine Finset.sum_congr rfl fun k _ => ?_
  unfold bandSum
  rw [dif_pos k.isLt]

/-- At a last-band point the stored value at (b, cl) is the average at (b, 128 * tile + cl). -/
theorem out_apply (c : Dev nD) (t : Fin cfg0.N) (h7 : t.val % 8 = 7) (b : Fin 16) (cl : Fin 128) (ch : Fin 256)
    (hch : ch.val = 128 * (t.val / 8) + cl.val) :
    k0_pay3 (F := Ideal) (Pool.accAt V c t.val t.isLt) (ix2 b cl) = Cert.SE.pooled (xarr V c) (ix2 b ch) := by
  rw [PoolPay.pay3_apply, accAt_eq V c t.val t.isLt b cl ch hch, h7, sum_bands]
  rfl

/-- What a last-band point writes back is its block of the average. -/
theorem flushed_eq (c : Dev nD) (t : Fin cfg0.N) (hf : (cfg0.win 1).flush t = true) :
    (Pool.dat (F := Ideal) V c).flushed 1 t
      = ((cfg0.win 1).blk t).view.read (Elt Ideal) (Cert.SE.pooled (V c main_arg0)) := by
  have h7 : t.val % 8 = 7 := (flush0_1 t).mp hf
  have hN : t.val < 16 := lt_of_lt_of_eq t.isLt (show cfg0.N = 16 from N_0)
  obtain ⟨e0, e1⟩ := idx_out t
  show (cfg0.win 1).cut (grid0.coords t) ((Pool.dat (F := Ideal) V c).after 1 t) = _
  rw [Pool.after_out]
  funext j
  have hj0 : (j 0).val < 16 := (j 0).isLt
  have hj1 : (j 1).val < 128 := (j 1).isLt
  have ein : (cfg0.win 1).xinj (grid0.coords t) j = ix2 (⟨(j 0).val, hj0⟩ : Fin 16) (⟨(j 1).val, hj1⟩ : Fin 128) := by
    funext a
    match a with
    | ⟨0, _⟩ => rfl
    | ⟨1, _⟩ => rfl
  have eout : ((cfg0.win 1).blk t).view.emb j
      = ix2 (⟨(j 0).val, hj0⟩ : Fin 16) (⟨128 * (t.val / 8) + (j 1).val, by omega⟩ : Fin 256) := by
    funext a
    apply Fin.ext
    match a with
    | ⟨0, _⟩ => show win0_1.index t (0 : Fin 2) * 16 + 1 * (j 0).val = (j 0).val; omega
    | ⟨1, _⟩ => show win0_1.index t (1 : Fin 2) * 128 + 1 * (j 1).val = 128 * (t.val / 8) + (j 1).val; omega
  show k0_pay3 (F := Ideal) (Pool.accAt V c t.val t.isLt) ((cfg0.win 1).xinj (grid0.coords t) j)
    = Cert.SE.pooled (V c main_arg0) (((cfg0.win 1).blk t).view.emb j)
  rw [ein, eout]
  exact out_apply V c t h7 ⟨(j 0).val, hj0⟩ ⟨(j 1).val, hj1⟩ ⟨128 * (t.val / 8) + (j 1).val, by omega⟩ rfl

/-! ## The two tiles' blocks cover the array -/

/-- An index of the (16, 256) array is in point t's block iff each coordinate is in the block's range on its axis. -/
theorem mem_out_blk (t : Fin cfg0.N) (i : S16x256.Idx) :
    i ∈ ((cfg0.win 1).blk t).view.set
      ↔ ∀ a : Fin 2, win0_1.index t a * S16x128.size a ≤ (i a).val ∧ (i a).val < win0_1.index t a * S16x128.size a + S16x128.size a := by
  show i ∈ ((View.whole main_v0).slice (win0_1.rect t)).set ↔ _
  rw [View.set_slice_whole, Rect.mem_set_unit]
  exact Iff.rfl

/-- Channel ch lies in the block the last band's point of tile ch / 128 writes back. -/
theorem covered (i : S16x256.Idx) :
    ∃ t : Fin cfg0.N, (cfg0.win 1).flush t = true ∧ i ∈ ((cfg0.win 1).blk t).view.set := by
  have h0 : (i 0).val < 16 := (i 0).isLt
  have h1 : (i 1).val < 256 := (i 1).isLt
  have hN : cfg0.N = 16 := N_0
  obtain ⟨t, ht⟩ : ∃ t : Fin cfg0.N, t.val = 8 * ((i 1).val / 128) + 7 := ⟨⟨8 * ((i 1).val / 128) + 7, by omega⟩, rfl⟩
  obtain ⟨e0, e1⟩ := idx_out t
  refine ⟨t, (flush0_1 t).mpr (by omega), ?_⟩
  rw [mem_out_blk]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 128 ≤ (i 1).val ∧ (i 1).val < win0_1.index t (1 : Fin 2) * 128 + 128; omega

/-- After all 16 points the result array is the average of x over its two trailing axes, whatever the contents V the
    region was entered with. -/
theorem result (c : Dev nD) :
    (Pool.dat (F := Ideal) V c).arrAt 1 cfg0.N = Cert.SE.pooled (V c main_arg0) := by
  exact (Pool.dat (F := Ideal) V c).arrAt_eq_of_cover 1 (Cert.SE.pooled (V c main_arg0)) (fun t hf => flushed_eq V c t hf) covered

end Cert.KernelIdeal.PoolValue

end
-- ==== Proof.RefValue.lean ====
/-
  The reference at an index: what jnp's mean computes, read entry by entry.  jnp.mean lowers to a sum over the
  two trailing axes (from the initial value 0) divided by 16384; at the extended reals that is `pooled`.
-/
import proofs.«159613_j44547400794189_1_alg».proof.Proof.Gen.ReferenceIdeal.Run
import proofs.«159613_j44547400794189_1_alg».proof.Proof.Gen.ReferenceIdeal.Read
import proofs.«159613_j44547400794189_1_alg».proof.Proof.PoolSpec
import Idealize.ShloMosaic.Lib.ValueIdx
import Idealize.ShloMosaic.PureOps.Ideal.Laws

noncomputable section

namespace Cert.SE.Ref

open Idealize.ShloMosaic Idealize.ShloMosaic.ValueIdx
open Cert.ReferenceIdeal Cert.ReferenceIdeal.Gen

/-- Dropping the two trailing axes of a rank-4 index keeps its first two coordinates. -/
theorem drop_ix4 (h : S16x256x128x128.ReducesTo [2, 3] S16x256) (a : Fin 16) (b : Fin 256) (c d : Fin 128) :
    h.drop (ix4 a b c d) = ix2 a b := by
  funext e
  match e with
  | ⟨0, _⟩ => exact Fin.ext (Shape.ReducesTo.drop_apply_val_of_eq h (ix4 a b c d) ⟨0, by decide⟩ 0)
  | ⟨1, _⟩ => exact Fin.ext (Shape.ReducesTo.drop_apply_val_of_eq h (ix4 a b c d) ⟨1, by decide⟩ 1)

/-- The indices that drop to (a, b) are exactly the (a, b, c, d): the sum over them is the double sum over the two
    trailing coordinates. -/
theorem sum_filter_drop {M : Type*} [AddCommMonoid M] (h : S16x256x128x128.ReducesTo [2, 3] S16x256)
    (x : S16x256x128x128.Idx → M) (a : Fin 16) (b : Fin 256) :
    ∑ i ∈ Finset.univ.filter (fun i => h.drop i = ix2 a b), x i = ∑ c : Fin 128, ∑ d : Fin 128, x (ix4 a b c d) := by
  rw [← Fintype.sum_prod_type']
  refine Finset.sum_nbij' (fun i => ((i 2 : Fin 128), (i 3 : Fin 128))) (fun p => ix4 a b p.1 p.2) ?_ ?_ ?_ ?_ ?_
  · intro i _; exact Finset.mem_univ _
  · intro p _; exact Finset.mem_filter.mpr ⟨Finset.mem_univ _, drop_ix4 h a b p.1 p.2⟩
  · intro i hi
    have hd : h.drop i = ix2 a b := (Finset.mem_filter.mp hi).2
    obtain ⟨a', b', c', d', rfl⟩ : ∃ a' b' c' d', i = ix4 a' b' c' d' := ⟨i 0, i 1, i 2, i 3, eq_ix4 i⟩
    rw [drop_ix4] at hd
    have ha : a' = a := congrFun hd 0
    have hb : b' = b := congrFun hd 1
    subst ha hb; rfl
  · intro p _; rfl
  · intro i hi
    have hd : h.drop i = ix2 a b := (Finset.mem_filter.mp hi).2
    obtain ⟨a', b', c', d', rfl⟩ : ∃ a' b' c' d', i = ix4 a' b' c' d' := ⟨i 0, i 1, i 2, i 3, eq_ix4 i⟩
    rw [drop_ix4] at hd
    have ha : a' = a := congrFun hd 0
    have hb : b' = b := congrFun hd 1
    subst ha hb; rfl

/-- The reference's mean stage — the two-axis sum from 0, over 16384 — is the shared average. -/
theorem mean_eq (x : Vec Ideal S16x256x128x128 .f32) :
    Host.divf (F := Ideal) (Host.reduceAdd x (constant (F := Ideal) S_ .f32 0x00000000#32) reducesTo_S16x256x128x128_S16x256_d2_3 h_S_)
        (broadcastInDim S16x256 ![] bcast_S_S16x256 (constant (F := Ideal) S_ .f32 0x46800000#32))
      = Cert.SE.pooled x := by
  funext j
  obtain ⟨a, b, rfl⟩ : ∃ (a : Fin 16) (b : Fin 256), j = ix2 a b := ⟨j 0, j 1, eq_ix2 j⟩
  show Ideal.div (Ideal.hostReduceAdd reducesTo_S16x256x128x128_S16x256_d2_3 x (Ideal.ofBits .f32 0x00000000#32) (ix2 a b))
      (Ideal.ofBits .f32 0x46800000#32) = (∑ h : Fin 128, ∑ w : Fin 128, x (ix4 a b h w)) * (((16384 : ℝ)⁻¹ : ℝ) : EReal)
  rw [ofBits_zero, ofBits_hw, Ideal.div_coe (by norm_num : (16384 : ℝ) ≠ 0), one_div]
  unfold Ideal.hostReduceAdd
  rw [zero_add, sum_filter_drop]

end Cert.SE.Ref

end
-- ==== Proof.Bridge.lean ====
/-
  The gate network, once on each side.

  Between the two pallas_calls the kernel's program runs, on the host, exactly the operations the reference runs
  after its mean: h = p W1^T + b1, s = h * sigmoid(h), gate = sigmoid(s W2^T + b2), with sigmoid(z) spelt
  1 / (1 + exp(-z)).  `kgate` is that chain over the kernel program's shape facts and `rgate` the same chain over the
  reference's; they are one function.  So the kernel's gate buffer is `kgate` of what the pool region left, the
  reference's result at an index is `rgate` of its mean stage times x, and nothing inside the chain is ever opened.
-/
import proofs.«159613_j44547400794189_1_alg».proof.Proof.OnIdeal.Whole
import proofs.«159613_j44547400794189_1_alg».proof.Proof.Gen.ReferenceIdeal.Read
import Idealize.ShloMosaic.Lib.StableHlo.Run
import Idealize.ShloMosaic.Lib.ValueIdx

set_option maxRecDepth 16384

noncomputable section

namespace Cert.SE.Bridge

open Idealize.ShloMosaic Idealize.ShloMosaic.TcCoe Idealize.ShloMosaic.ValueIdx Idealize.SL.Sem

variable {F : FTy → Type} [FloatOps F]

/-! ## The kernel program's host stretch -/

section Kernel
open Cert.KernelIdeal Cert.KernelIdeal.Gen Idealize.ShloMosaic.StableHlo

/-- The gate network over the kernel program's shape facts. -/
def kgate (p : Vec F S16x256 .f32) (w1 : Vec F S256x256 .f32) (b1 : Vec F S256 .f32) (w2 : Vec F S256x256 .f32) (b2 : Vec F S256 .f32) :
    Vec F S16x256 .f32 :=
  let one : Vec F S16x256 .f32 := broadcastInDim S16x256 ![] bcast_S_S16x256 (constant S_ .f32 0x3F800000#32)
  let h : Vec F S16x256 .f32 := addf (Host.dotGeneral dot_S16x256_S256x256_S16x256_1_0_0_1_n_n none p (transpose S256x256 [1, 0] w1 transposes_S256x256_S256x256_1_0))
    (broadcastInDim S16x256 ![0, 1] bcast_S1x256_S16x256_0_1 (broadcastInDim S1x256 ![1] bcast_S256_S1x256_1 b1))
  let s : Vec F S16x256 .f32 := mulf h (Host.divf one (addf one (Host.exp (Host.negf h))))
  Host.divf one (addf one (Host.exp (Host.negf (addf (Host.dotGeneral dot_S16x256_S256x256_S16x256_1_0_0_1_n_n none s (transpose S256x256 [1, 0] w2 transposes_S256x256_S256x256_1_0))
    (broadcastInDim S16x256 ![0, 1] bcast_S1x256_S16x256_0_1 (broadcastInDim S1x256 ![1] bcast_S256_S1x256_1 b2))))))

/-- After the 27 host operations the gate buffer holds the gate network of the pooled buffer and the four parameter
    arrays as the stretch found them. -/
theorem gate_after (W : Valuation τ sig (Elt F)) :
    (StableHlo.after hostOps1 W (Proc.devRef .tc main_v23) : S16x256.Idx → Elt F .f32)
      = kgate (W (Proc.devRef .tc main_v0)) (W (Proc.devRef .tc main_arg1)) (W (Proc.devRef .tc main_arg2)) (W (Proc.devRef .tc main_arg3)) (W (Proc.devRef .tc main_arg4)) := by
  after_results
  rfl

end Kernel

/-! ## The reference's stages -/

section Reference
open Cert.ReferenceIdeal Cert.ReferenceIdeal.Gen Cert.ReferenceIdeal.Read

/-- The gate network over the reference program's shape facts. -/
def rgate (p : Vec F S16x256 .f32) (w1 : Vec F S256x256 .f32) (b1 : Vec F S256 .f32) (w2 : Vec F S256x256 .f32) (b2 : Vec F S256 .f32) :
    Vec F S16x256 .f32 :=
  let one : Vec F S16x256 .f32 := broadcastInDim S16x256 ![] bcast_S_S16x256 (constant S_ .f32 0x3F800000#32)
  let h : Vec F S16x256 .f32 := addf (Host.dotGeneral dot_S16x256_S256x256_S16x256_1_0_0_1_n_n none p (transpose S256x256 [1, 0] w1 transposes_S256x256_S256x256_1_0))
    (broadcastInDim S16x256 ![0, 1] bcast_S1x256_S16x256_0_1 (broadcastInDim S1x256 ![1] bcast_S256_S1x256_1 b1))
  let s : Vec F S16x256 .f32 := mulf h (Host.divf one (addf one (Host.exp (Host.negf h))))
  Host.divf one (addf one (Host.exp (Host.negf (addf (Host.dotGeneral dot_S16x256_S256x256_S16x256_1_0_0_1_n_n none s (transpose S256x256 [1, 0] w2 transposes_S256x256_S256x256_1_0))
    (broadcastInDim S16x256 ![0, 1] bcast_S1x256_S16x256_0_1 (broadcastInDim S1x256 ![1] bcast_S256_S1x256_1 b2))))))

/-- The reference's gate stage is the gate network of its mean stage. -/
theorem ref_gate (x0 : Vec F S16x256x128x128 .f32) (x1 : Vec F S256x256 .f32) (x2 : Vec F S256 .f32) (x3 : Vec F S256x256 .f32) (x4 : Vec F S256 .f32) :
    val_main_v25 (F := F) x0 x1 x2 x3 x4 = rgate (val_main_v2 (F := F) x0) x1 x2 x3 x4 := rfl

/-- The mean stage, spelt out: the two-axis sum from the constant 0, over the constant 16384 broadcast. -/
theorem ref_mean (x0 : Vec F S16x256x128x128 .f32) :
    val_main_v2 (F := F) x0 = Host.divf (Host.reduceAdd x0 (constant S_ .f32 0x00000000#32) reducesTo_S16x256x128x128_S16x256_d2_3 h_S_)
      (broadcastInDim S16x256 ![] bcast_S_S16x256 (constant S_ .f32 0x46800000#32)) := rfl

/-- The reference's result at an index: its gate stage at the index's (batch, channel) pair, times x there. -/
theorem ref_at (x0 : Vec Ideal S16x256x128x128 .f32) (x1 : Vec Ideal S256x256 .f32) (x2 : Vec Ideal S256 .f32) (x3 : Vec Ideal S256x256 .f32) (x4 : Vec Ideal S256 .f32)
    (j : S16x256x128x128.Idx) :
    val_main_v28 (F := Ideal) x0 x1 x2 x3 x4 j = val_main_v25 (F := Ideal) x0 x1 x2 x3 x4 (ix2 (j 0) (j 1)) * x0 j := by
  have hidx : idx_main_v26 (idx_main_v27 j) = ix2 (j 0) (j 1) :=
    funext fun a => Fin.ext (by match a with | ⟨0, _⟩ => rfl | ⟨1, _⟩ => rfl)
  rw [val_main_v28_apply, val_main_v27_apply, val_main_v26_apply, hidx]
  rfl

end Reference

/-! ## One function -/

/-- The two chains are the same operations over the same literal shapes. -/
theorem gate_same (p : Vec Ideal ⟨2, ![16, 256]⟩ .f32) (w1 : Vec Ideal ⟨2, ![256, 256]⟩ .f32) (b1 : Vec Ideal ⟨1, ![256]⟩ .f32)
    (w2 : Vec Ideal ⟨2, ![256, 256]⟩ .f32) (b2 : Vec Ideal ⟨1, ![256]⟩ .f32) :
    kgate (F := Ideal) p w1 b1 w2 b2 = rgate (F := Ideal) p w1 b1 w2 b2 := rfl

end Cert.SE.Bridge

end
-- ==== Proof.Final.lean ====
/-
  The two programs compute one function.

  Kernel side: the last boundary's contents at the result array are what the scale region leaves, x times the
  gate; the gate buffer is the gate network of the pooled buffer; the pooled buffer is what the pool region
  leaves, the average of x.  Reference side: the result at an index is the gate network of the mean stage, at
  the index's (batch, channel) pair, times x there; the mean stage is the same average.  The gate networks are one
  function, the arguments agree, and a product of two extended reals does not depend on the order of its
  factors.
-/
import proofs.«159613_j44547400794189_1_alg».proof.Defs
import proofs.«159613_j44547400794189_1_alg».proof.Proof.OnIdeal.Whole
import proofs.«159613_j44547400794189_1_alg».proof.Proof.OnIdeal.ScaleValue
import proofs.«159613_j44547400794189_1_alg».proof.Proof.OnIdeal.PoolValue
import proofs.«159613_j44547400794189_1_alg».proof.Proof.RefValue
import proofs.«159613_j44547400794189_1_alg».proof.Proof.Bridge
import proofs.«159613_j44547400794189_1_alg».proof.Proof.Gen.ReferenceIdeal.Run
import proofs.«159613_j44547400794189_1_alg».proof.Proof.Gen.ReferenceIdeal.Read

set_option maxRecDepth 16384

noncomputable section

namespace Cert.SE.Final

open Idealize.ShloMosaic Idealize.ShloMosaic.TcCoe Idealize.ShloMosaic.ValueIdx Idealize.SL.Sem

section Kernel
open Cert.KernelIdeal Cert.KernelIdeal.Gen Cert.KernelIdeal.Whole

variable (m : (ℓ : Loc nD τ sig) → Buf (Elt Ideal) ℓ)

/-- The common result: x times the gate network of its average. -/
def out (x : Vec Ideal S16x256x128x128 .f32) (w1 : Vec Ideal S256x256 .f32) (b1 : Vec Ideal S256 .f32) (w2 : Vec Ideal S256x256 .f32) (b2 : Vec Ideal S256 .f32) :
    Vec Ideal S16x256x128x128 .f32 :=
  ScaleValue.gated x (Bridge.kgate (Cert.SE.pooled x) w1 b1 w2 b2)

/-- After the pool region x is as launched (an input window's array is left as found), and so are the parameters. -/
theorem W1_x (c : Dev nD) : W1 m c (Proc.devRef .tc main_arg0) = m ((c : Thread nD τ).loc main_arg0) :=
  (W1_arr m c 0).trans (((Pool.dat (V0 m) c).arrAt_in 0 rfl _).trans (Pool.dat_A (V0 m) c 0))
theorem W1_w1 (c : Dev nD) : W1 m c (Proc.devRef .tc main_arg1) = m ((c : Thread nD τ).loc main_arg1) := W1_of_ne m c main_arg1 (by decide)
theorem W1_b1 (c : Dev nD) : W1 m c (Proc.devRef .tc main_arg2) = m ((c : Thread nD τ).loc main_arg2) := W1_of_ne m c main_arg2 (by decide)
theorem W1_w2 (c : Dev nD) : W1 m c (Proc.devRef .tc main_arg3) = m ((c : Thread nD τ).loc main_arg3) := W1_of_ne m c main_arg3 (by decide)
theorem W1_b2 (c : Dev nD) : W1 m c (Proc.devRef .tc main_arg4) = m ((c : Thread nD τ).loc main_arg4) := W1_of_ne m c main_arg4 (by decide)

/-- The pooled buffer after the pool region is the average of x. -/
theorem W1_pooled (c : Dev nD) : W1 m c (Proc.devRef .tc main_v0) = Cert.SE.pooled (m ((c : Thread nD τ).loc main_arg0)) :=
  (W1_arr m c 1).trans (PoolValue.result (V0 m) c)

/-- x when the scale region is entered is x as launched: no host operation writes it. -/
theorem W2_x (c : Dev nD) : W2 m c (Proc.devRef .tc main_arg0) = m ((c : Thread nD τ).loc main_arg0) :=
  (W2_of m c main_arg0 (by decide)).trans (W1_x m c)

/-- The gate buffer when the scale region is entered. -/
theorem W2_gate (c : Dev nD) :
    W2 m c (Proc.devRef .tc main_v23) = Bridge.kgate (Cert.SE.pooled (m ((c : Thread nD τ).loc main_arg0)))
      (m ((c : Thread nD τ).loc main_arg1)) (m ((c : Thread nD τ).loc main_arg2)) (m ((c : Thread nD τ).loc main_arg3)) (m ((c : Thread nD τ).loc main_arg4)) := by
  refine (Bridge.gate_after (W1 m c)).trans ?_
  rw [W1_pooled, W1_w1, W1_b1, W1_w2, W1_b2]

/-- The result array at the last boundary. -/
theorem W3_out (c : Dev nD) :
    W3 m c (Proc.devRef .tc main_v24) = out (m ((c : Thread nD τ).loc main_arg0)) (m ((c : Thread nD τ).loc main_arg1))
      (m ((c : Thread nD τ).loc main_arg2)) (m ((c : Thread nD τ).loc main_arg3)) (m ((c : Thread nD τ).loc main_arg4)) := by
  refine (W3_arr m c 2).trans ((ScaleValue.result (V2 m) c).trans ?_)
  show ScaleValue.gated (W2 m c (Proc.devRef .tc main_arg0)) (W2 m c (Proc.devRef .tc main_v23)) = _
  rw [W2_x, W2_gate]
  rfl

end Kernel

section Reference
open Cert.ReferenceIdeal Cert.ReferenceIdeal.Gen Cert.ReferenceIdeal.Read

/-- The reference's result is the common result. -/
theorem ref_out (x0 : Vec Ideal S16x256x128x128 .f32) (x1 : Vec Ideal S256x256 .f32) (x2 : Vec Ideal S256 .f32) (x3 : Vec Ideal S256x256 .f32) (x4 : Vec Ideal S256 .f32) :
    val_main_v28 (F := Ideal) x0 x1 x2 x3 x4 = out x0 x1 x2 x3 x4 := by
  funext j
  rw [Bridge.ref_at, Bridge.ref_gate, Bridge.ref_mean, Cert.SE.Ref.mean_eq]
  unfold out Cert.KernelIdeal.ScaleValue.gated
  rw [Bridge.gate_same]
  exact mul_comm _ _

end Reference

end Cert.SE.Final

end
-- ==== Proof.lean ====
/-
  A squeeze-and-excite block: out = x * gate(mean(x)), for x of shape (16, 256, 128, 128).

  The kernel's program is two pallas_calls with a small host network between them.  The first averages x
  over its two trailing axes, one tile of 128 channels at a time, accumulating the 8 row bands of a tile in a
  scratch buffer and scaling by 2^-14 on the last band.  The host then computes gate = sigmoid(s W2^T + b2)
  with s = h * sigmoid(h), h = p W1^T + b1, exactly as the reference does.  The second pallas_call multiplies
  each (16, 128, 8, 128) block of x by its channel tile's gate.  The reference is jnp's mean, the same
  network, and a broadcast product.

  Frames.  Each kernel region is entered holding every unscoped buffer at known contents and left the same way;
  the scratch's running sum is the pool region's invariant.  The same text serves the word-level program and
  the idealized one, since nothing in it depends on what a float is.
  Values, at the extended reals.  The kernel's sum * 2^-14 and the reference's sum / 16384 are one function
  (2^-14 is an exact float; a quotient by a nonzero real is the product with its reciprocal at every extended
  real), the gate networks are the same operations, and the final products differ only in the order of their
  factors.  No step needs the inputs to be finite.
-/
import proofs.«159613_j44547400794189_1_alg».proof.Defs
import proofs.«159613_j44547400794189_1_alg».proof.Proof.Gen.Kernel
import proofs.«159613_j44547400794189_1_alg».proof.Proof.Gen.KernelIdeal
import proofs.«159613_j44547400794189_1_alg».proof.Proof.Gen.ReferenceIdeal
import proofs.«159613_j44547400794189_1_alg».proof.Proof.Gen.Pre_finite_inputs
import proofs.«159613_j44547400794189_1_alg».proof.Proof.Gen.ReferenceIdeal.Run
import proofs.«159613_j44547400794189_1_alg».proof.Proof.Gen.ReferenceIdeal.Read
import proofs.«159613_j44547400794189_1_alg».proof.Proof.OnBits.Whole
import proofs.«159613_j44547400794189_1_alg».proof.Proof.OnIdeal.Whole
import proofs.«159613_j44547400794189_1_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its five arguments as launched. -/
theorem frame_kernel : Cert.frame_Kernel := fun m ρ _ => Cert.Kernel.Whole.frame m ρ

/-- So does the idealized program. -/
theorem frame_kernel_ideal : Cert.frame_KernelIdeal := fun m ρ _ => Cert.KernelIdeal.Whole.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with x times the gate network of x's average. -/
theorem algebraic : Cert.algebraic_KernelIdeal_ReferenceIdeal := by
  intro m ρ m' ρ' _ hagree
  refine ⟨fun c => Cert.SE.Final.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Whole.run_all m ρ)
    exact ⟨(h c _ (Cert.KernelIdeal.Whole.mem_uc Cert.KernelIdeal.main_v24 (by decide))).trans (Cert.SE.Final.W3_out m c),
      (h c _ (Cert.KernelIdeal.Whole.mem_uc Cert.KernelIdeal.main_arg0 (by decide))).trans (Cert.KernelIdeal.Whole.W3_main_arg0 m c),
      (h c _ (Cert.KernelIdeal.Whole.mem_uc Cert.KernelIdeal.main_arg1 (by decide))).trans (Cert.KernelIdeal.Whole.W3_main_arg1 m c),
      (h c _ (Cert.KernelIdeal.Whole.mem_uc Cert.KernelIdeal.main_arg2 (by decide))).trans (Cert.KernelIdeal.Whole.W3_main_arg2 m c),
      (h c _ (Cert.KernelIdeal.Whole.mem_uc Cert.KernelIdeal.main_arg3 (by decide))).trans (Cert.KernelIdeal.Whole.W3_main_arg3 m c),
      (h c _ (Cert.KernelIdeal.Whole.mem_uc Cert.KernelIdeal.main_arg4 (by decide))).trans (Cert.KernelIdeal.Whole.W3_main_arg4 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.SE.Final.ref_out,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
